-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2000000 : Shape := ⟨1, ![2000000]⟩
abbrev S1000001x1 : Shape := ⟨2, ![1000001, 1]⟩
abbrev S2000000x2x16 : Shape := ⟨3, ![2000000, 2, 16]⟩
abbrev S1000000x2 : Shape := ⟨2, ![1000000, 2]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S1000001x1 : S_.BroadcastsInDim S1000001x1 (![] : Fin 0 → Fin S1000001x1.rank)
  reducesTo_S1000001x1_S_d0_1 : S1000001x1.ReducesTo [0, 1] S_
  bcast_S_S2000000x2x16 : S_.BroadcastsInDim S2000000x2x16 (![] : Fin 0 → Fin S2000000x2x16.rank)
  reducesTo_S2000000x2x16_S_d0_1_2 : S2000000x2x16.ReducesTo [0, 1, 2] S_
  bcast_S_S2000000 : S_.BroadcastsInDim S2000000 (![] : Fin 0 → Fin S2000000.rank)
  reducesTo_S2000000_S_d0 : S2000000.ReducesTo [0] S_
  bcast_S_S1000000x2 : S_.BroadcastsInDim S1000000x2 (![] : Fin 0 → Fin S1000000x2.rank)
  reducesTo_S1000000x2_S_d0_1 : S1000000x2.ReducesTo [0, 1] S_

variable [Facts]

def fn_part1 {F : FTy → Type} [FloatOps F] (main_arg1 : IVec S2000000 32) (main_arg4 : IVec S1000000x2 32) (main_v13 : IVec S_ 1) (main_v15 : IVec S2000000 1) (main_c_5 : IVec S_ 1) : IVec S_ 1 :=
  let main_v16 : IVec S_ 1 := (fun x v => Host.reduce IntOp.andi x v reducesTo_S2000000_S_d0 h_S_) main_v15 main_c_5
  let main_v17 : IVec S_ 1 := andi main_v13 main_v16
  let main_c_6 : IVec S_ 32 := constantI S_ 32 1000000#32
  let main_v18 : IVec S2000000 32 := broadcastInDim S2000000 ![] bcast_S_S2000000 main_c_6
  let main_v19 : IVec S2000000 1 := cmpi .slt main_arg1 main_v18
  let main_c_7 : IVec S_ 1 := constantI S_ 1 1#1
  let main_v20 : IVec S_ 1 := (fun x v => Host.reduce IntOp.andi x v reducesTo_S2000000_S_d0 h_S_) main_v19 main_c_7
  let main_v21 : IVec S_ 1 := andi main_v17 main_v20
  let main_c_8 : IVec S_ 32 := constantI S_ 32 1#32
  let main_v22 : IVec S1000000x2 32 := broadcastInDim S1000000x2 ![] bcast_S_S1000000x2 main_c_8
  let main_v23 : IVec S1000000x2 1 := cmpi .sge main_arg4 main_v22
  let main_c_9 : IVec S_ 1 := constantI S_ 1 1#1
  let main_v24 : IVec S_ 1 := (fun x v => Host.reduce IntOp.andi x v reducesTo_S1000000x2_S_d0_1 h_S_) main_v23 main_c_9
  let main_v25 : IVec S_ 1 := andi main_v21 main_v24
  let main_c_10 : IVec S_ 32 := constantI S_ 32 1000001#32
  let main_v26 : IVec S1000000x2 32 := broadcastInDim S1000000x2 ![] bcast_S_S1000000x2 main_c_10
  let main_v27 : IVec S1000000x2 1 := cmpi .sle main_arg4 main_v26
  let main_c_11 : IVec S_ 1 := constantI S_ 1 1#1
  let main_v28 : IVec S_ 1 := (fun x v => Host.reduce IntOp.andi x v reducesTo_S1000000x2_S_d0_1 h_S_) main_v27 main_c_11
  let main_v29 : IVec S_ 1 := andi main_v25 main_v28
  main_v29

def fn {F : FTy → Type} [FloatOps F] (main_arg0 : FVec F S1 .f32) (main_arg1 : IVec S2000000 32) (main_arg2 : FVec F S1000001x1 .f32) (main_arg3 : FVec F S2000000x2x16 .f32) (main_arg4 : IVec S1000000x2 32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1000001x1 .f32 := Host.absf main_arg2
  let main_cst_0 : FVec F S_ .f32 := constant S_ .f32 0x7F800000#32
  let main_v5 : FVec F S1000001x1 .f32 := broadcastInDim S1000001x1 ![] bcast_S_S1000001x1 main_cst_0
  let main_v6 : IVec S1000001x1 1 := cmpf .olt main_v4 main_v5
  let main_c_1 : IVec S_ 1 := constantI S_ 1 1#1
  let main_v7 : IVec S_ 1 := (fun x v => Host.reduce IntOp.andi x v reducesTo_S1000001x1_S_d0_1 h_S_) main_v6 main_c_1
  let main_v8 : IVec S_ 1 := andi main_v3 main_v7
  let main_v9 : FVec F S2000000x2x16 .f32 := Host.absf main_arg3
  let main_cst_2 : FVec F S_ .f32 := constant S_ .f32 0x7F800000#32
  let main_v10 : FVec F S2000000x2x16 .f32 := broadcastInDim S2000000x2x16 ![] bcast_S_S2000000x2x16 main_cst_2
  let main_v11 : IVec S2000000x2x16 1 := cmpf .olt main_v9 main_v10
  let main_c_3 : IVec S_ 1 := constantI S_ 1 1#1
  let main_v12 : IVec S_ 1 := (fun x v => Host.reduce IntOp.andi x v reducesTo_S2000000x2x16_S_d0_1_2 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg1 main_v14
  let main_c_5 : IVec S_ 1 := constantI S_ 1 1#1
  fn_part1 (F := F) main_arg1 main_arg4 main_v13 main_v15 main_c_5
-- ==== Kernel.lean ====
abbrev S1 : Shape := ⟨1, ![1]⟩
abbrev S2000000 : Shape := ⟨1, ![2000000]⟩
abbrev S1000001x1 : Shape := ⟨2, ![1000001, 1]⟩
abbrev S2000000x2x16 : Shape := ⟨3, ![2000000, 2, 16]⟩
abbrev S1000000x2 : Shape := ⟨2, ![1000000, 2]⟩
abbrev S_ : Shape := ⟨0, ![]⟩
abbrev S2000000x1 : Shape := ⟨2, ![2000000, 1]⟩
abbrev S1x1 : Shape := ⟨2, ![1, 1]⟩
abbrev S2000000x2 : Shape := ⟨2, ![2000000, 2]⟩
abbrev S1000001 : Shape := ⟨1, ![1000001]⟩
abbrev S2000000x32 : Shape := ⟨2, ![2000000, 32]⟩
abbrev S2000000x16 : Shape := ⟨2, ![2000000, 16]⟩
abbrev S8000x32 : Shape := ⟨2, ![8000, 32]⟩
abbrev S8000x2 : Shape := ⟨2, ![8000, 2]⟩
abbrev S8000x16 : Shape := ⟨2, ![8000, 16]⟩
abbrev S8000x1 : Shape := ⟨2, ![8000, 1]⟩
abbrev S8000 : Shape := ⟨1, ![8000]⟩

abbrev nBuf : Space → Nat
  | .hbm => 85
  | .vmem => 6
  | .smem => 0
  | _ => 0

abbrev bufTy : (tb : Table) → Fin (tcTables nBuf tb) → BufTy
  | .hbm, ⟨0, _⟩ => ⟨S1, .f32⟩
  | .hbm, ⟨1, _⟩ => ⟨S2000000, .i32⟩
  | .hbm, ⟨2, _⟩ => ⟨S1000001x1, .f32⟩
  | .hbm, ⟨3, _⟩ => ⟨S2000000x2x16, .f32⟩
  | .hbm, ⟨4, _⟩ => ⟨S1000000x2, .i32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S1, .i32⟩
  | .hbm, ⟨14, _⟩ => ⟨S_, .i32⟩
  | .hbm, ⟨15, _⟩ => ⟨S2000000x1, .i32⟩
  | .hbm, ⟨16, _⟩ => ⟨S2000000x1, .i1⟩
  | .hbm, ⟨17, _⟩ => ⟨S1x1, .i32⟩
  | .hbm, ⟨18, _⟩ => ⟨S2000000x1, .i32⟩
  | .hbm, ⟨19, _⟩ => ⟨S2000000x1, .i1⟩
  | .hbm, ⟨20, _⟩ => ⟨S2000000x1, .i1⟩
  | .hbm, ⟨21, _⟩ => ⟨S_, .i1⟩
  | .hbm, ⟨22, _⟩ => ⟨S2000000, .i1⟩
  | .hbm, ⟨23, _⟩ => ⟨S2000000x2, .i32⟩
  | .hbm, ⟨24, _⟩ => ⟨S2000000x2, .i1⟩
  | .hbm, ⟨25, _⟩ => ⟨S_, .i32⟩
  | .hbm, ⟨26, _⟩ => ⟨S2000000x2, .i32⟩
  | .hbm, ⟨27, _⟩ => ⟨S2000000x2, .i32⟩
  | .hbm, ⟨28, _⟩ => ⟨S_, .i32⟩
  | .hbm, ⟨29, _⟩ => ⟨S2000000x2, .i32⟩
  | .hbm, ⟨30, _⟩ => ⟨S2000000x2, .i32⟩
  | .hbm, ⟨31, _⟩ => ⟨S2000000x1, .i32⟩
  | .hbm, ⟨32, _⟩ => ⟨S2000000, .i32⟩
  | .hbm, ⟨33, _⟩ => ⟨S2000000x1, .i32⟩
  | .hbm, ⟨34, _⟩ => ⟨S2000000, .i32⟩
  | .hbm, ⟨35, _⟩ => ⟨S1000001, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S1, .i32⟩
  | .hbm, ⟨45, _⟩ => ⟨S_, .i32⟩
  | .hbm, ⟨46, _⟩ => ⟨S2000000x1, .i32⟩
  | .hbm, ⟨47, _⟩ => ⟨S2000000x1, .i1⟩
  | .hbm, ⟨48, _⟩ => ⟨S1x1, .i32⟩
  | .hbm, ⟨49, _⟩ => ⟨S2000000x1, .i32⟩
  | .hbm, ⟨50, _⟩ => ⟨S2000000x1, .i1⟩
  | .hbm, ⟨51, _⟩ => ⟨S2000000x1, .i1⟩
  | .hbm, ⟨52, _⟩ => ⟨S_, .i1⟩
  | .hbm, ⟨53, _⟩ => ⟨S2000000, .i1⟩
  | .hbm, ⟨54, _⟩ => ⟨S2000000, .f32⟩
  | .hbm, ⟨55, _⟩ => ⟨S_, .f32⟩
  | .hbm, ⟨56, _⟩ => ⟨S2000000, .f32⟩
  | .hbm, ⟨57, _⟩ => ⟨S2000000, .f32⟩
  | .hbm, ⟨58, _⟩ => ⟨S_, .i32⟩
  | .hbm, ⟨59, _⟩ => ⟨S2000000, .i32⟩
  | .hbm, ⟨60, _⟩ => ⟨S2000000, .i1⟩
  | .hbm, ⟨61, _⟩ => ⟨S_, .i32⟩
  | .hbm, ⟨62, _⟩ => ⟨S2000000, .i32⟩
  | .hbm, ⟨63, _⟩ => ⟨S2000000, .i32⟩
  | .hbm, ⟨64, _⟩ => ⟨S2000000, .i32⟩
  | .hbm, ⟨65, _⟩ => ⟨S2000000x1, .i32⟩
  | .hbm, ⟨66, _⟩ => ⟨S1, .i32⟩
  | .hbm, ⟨67, _⟩ => ⟨S_, .i32⟩
  | .hbm, ⟨68, _⟩ => ⟨S2000000x1, .i32⟩
  | .hbm, ⟨69, _⟩ => ⟨S2000000x1, .i1⟩
  | .hbm, ⟨70, _⟩ => ⟨S1x1, .i32⟩
  | .hbm, ⟨71, _⟩ => ⟨S2000000x1, .i32⟩
  | .hbm, ⟨72, _⟩ => ⟨S2000000x1, .i1⟩
  | .hbm, ⟨73, _⟩ => ⟨S2000000x1, .i1⟩
  | .hbm, ⟨74, _⟩ => ⟨S_, .i1⟩
  | .hbm, ⟨75, _⟩ => ⟨S2000000, .i1⟩
  | .hbm, ⟨76, _⟩ => ⟨S2000000, .f32⟩
  | .hbm, ⟨77, _⟩ => ⟨S_, .f32⟩
  | .hbm, ⟨78, _⟩ => ⟨S2000000, .f32⟩
  | .hbm, ⟨79, _⟩ => ⟨S2000000, .f32⟩
  | .hbm, ⟨80, _⟩ => ⟨S2000000x1, .f32⟩
  | .hbm, ⟨81, _⟩ => ⟨S2000000x1, .f32⟩
  | .hbm, ⟨82, _⟩ => ⟨S2000000x2, .f32⟩
  | .hbm, ⟨83, _⟩ => ⟨S2000000x32, .f32⟩
  | .hbm, ⟨84, _⟩ => ⟨S2000000x16, .f32⟩
  | .local _ .vmem, ⟨0, _⟩ => ⟨S8000x32, .f32⟩
  | .local _ .vmem, ⟨1, _⟩ => ⟨S8000x32, .f32⟩
  | .local _ .vmem, ⟨2, _⟩ => ⟨S8000x2, .f32⟩
  | .local _ .vmem, ⟨3, _⟩ => ⟨S8000x2, .f32⟩
  | .local _ .vmem, ⟨4, _⟩ => ⟨S8000x16, .f32⟩
  | .local _ .vmem, ⟨5, _⟩ => ⟨S8000x16, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c_4 : Ref sig .tc := ⟨.hbm, 25, rfl⟩
abbrev main_call0_v15 : Ref sig .tc := ⟨.hbm, 26, rfl⟩
abbrev main_v0 : Ref sig .tc := ⟨.hbm, 27, rfl⟩
abbrev main_c : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v8 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_cst : Ref sig .tc := ⟨.hbm, 77, rfl⟩
abbrev main_call2_v14 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x2_0 : S2000000.BroadcastsInDim S2000000x2 (![0] : Fin 1 → Fin S2000000x2.rank)
  bcast_S_S2000000x2 : S_.BroadcastsInDim S2000000x2 (![] : Fin 0 → Fin S2000000x2.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  shapeCasts_S1000001x1_S1000001 : S1000001x1.ShapeCasts S1000001
  concatenates_S2000000x1_S2000000x1_S2000000x2_d1 : Shape.Concatenates [S2000000x1, S2000000x1] S2000000x2 1
  shapeCasts_S2000000x2x16_S2000000x32 : S2000000x2x16.ShapeCasts S2000000x32
  inb_S8000x32_S8000x16_0_0 : ∀ a, (![0, 0] : Fin 2 → Nat) a + S8000x16.size a ≤ S8000x32.size a
  h_S8000x16 : 0 < S8000x16.numel
  shapeCasts_S8000x16_S8000x16 : S8000x16.ShapeCasts S8000x16
  inb_S8000x32_S8000x16_0_16 : ∀ a, (![0, 16] : Fin 2 → Nat) a + S8000x16.size a ≤ S8000x32.size a
  inb_S8000x2_S8000x1_0_0 : ∀ a, (![0, 0] : Fin 2 → Nat) a + S8000x1.size a ≤ S8000x2.size a
  h_S8000x1 : 0 < S8000x1.numel
  shapeCasts_S8000x1_S8000 : S8000x1.ShapeCasts S8000
  inb_S8000x2_S8000x1_0_1 : ∀ a, (![0, 1] : Fin 2 → Nat) a + S8000x1.size a ≤ S8000x2.size a
  shapeCasts_S8000_S8000x1 : S8000.ShapeCasts S8000x1
  broadcasts_S8000x1_S8000x16 : S8000x1.Broadcasts S8000x16
  inb_S8000x16_S8000x16_0_0 : ∀ a, (![0, 0] : Fin 2 → Nat) a + S8000x16.size a ≤ S8000x16.size a
  gather_S1000000x2_S2000000x1_S2000000x2_1_0_n_n_0_1_12_wf : GatherDims.WF S1000000x2 S2000000x1 S2000000x2 [1] [0] [] [0] [] 1 ![1, 2]
  gather_S1000001_S2000000x1_S2000000_n_0_n_n_0_1_1_wf : GatherDims.WF S1000001 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S2000000x32.size a
  hwx0_0 : ∀ i : grid0.Coords, EltTy.bits .f32 = 32 ∨ (Rect.block (s := S2000000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x2.size a ≤ S2000000x2.size a
  hwx0_1 : ∀ i : grid0.Coords, EltTy.bits .f32 = 32 ∨ (Rect.block (s := S2000000x2) S8000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S2000000x16.size a
  hwx0_2 : ∀ i : grid0.Coords, EltTy.bits .f32 = 32 ∨ (Rect.block (s := S2000000x16) S8000x16.size (cc0_transform_2 i) (hinb0_2 i)).WholeWords (EltTy.packing .f32)

variable [Facts₀]

def gather_S1000000x2_S2000000x1_S2000000x2_1_0_n_n_0_1_12 : GatherDims S1000000x2 S2000000x1 S2000000x2 where
  offsetDims := [1]
  collapsedSliceDims := [0]
  operandBatchingDims := []
  startIndicesBatchingDims := []
  startIndexMap := [0]
  indexVectorDim := 1
  sliceSizes := ![1, 2]
  wf := gather_S1000000x2_S2000000x1_S2000000x2_1_0_n_n_0_1_12_wf
def gather_S1000001_S2000000x1_S2000000_n_0_n_n_0_1_1 : GatherDims S1000001 S2000000x1 S2000000 where
  offsetDims := []
  collapsedSliceDims := [0]
  operandBatchingDims := []
  startIndicesBatchingDims := []
  startIndexMap := [0]
  indexVectorDim := 1
  sliceSizes := ![1]
  wf := gather_S1000001_S2000000x1_S2000000_n_0_n_n_0_1_1_wf

abbrev win0_0 : Pipeline.Window sig grid0 :=
  Pipeline.Window.ofSpec (Memref.whole main_v13) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1 : Shape := ⟨1, ![1]⟩
abbrev S2000000 : Shape := ⟨1, ![2000000]⟩
abbrev S1000001x1 : Shape := ⟨2, ![1000001, 1]⟩
abbrev S2000000x2x16 : Shape := ⟨3, ![2000000, 2, 16]⟩
abbrev S1000000x2 : Shape := ⟨2, ![1000000, 2]⟩
abbrev S_ : Shape := ⟨0, ![]⟩
abbrev S2000000x1 : Shape := ⟨2, ![2000000, 1]⟩
abbrev S2000000x2 : Shape := ⟨2, ![2000000, 2]⟩
abbrev S2000000x1x16 : Shape := ⟨3, ![2000000, 1, 16]⟩
abbrev S2000000x16 : Shape := ⟨2, ![2000000, 16]⟩

abbrev nBuf : Space → Nat
  | .hbm => 60
  | .vmem => 0
  | .smem => 0
  | _ => 0

abbrev bufTy : (tb : Table) → Fin (tcTables nBuf tb) → BufTy
  | .hbm, ⟨0, _⟩ => ⟨S1, .f32⟩
  | .hbm, ⟨1, _⟩ => ⟨S2000000, .i32⟩
  | .hbm, ⟨2, _⟩ => ⟨S1000001x1, .f32⟩
  | .hbm, ⟨3, _⟩ => ⟨S2000000x2x16, .f32⟩
  | .hbm, ⟨4, _⟩ => ⟨S1000000x2, .i32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x2, .i32⟩
  | .hbm, ⟨14, _⟩ => ⟨S_, .i32⟩
  | .hbm, ⟨15, _⟩ => ⟨S2000000x2, .i32⟩
  | .hbm, ⟨16, _⟩ => ⟨S2000000x2, .i32⟩
  | .hbm, ⟨17, _⟩ => ⟨S2000000x1, .i32⟩
  | .hbm, ⟨18, _⟩ => ⟨S2000000, .i32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x1, .i32⟩
  | .hbm, ⟨31, _⟩ => ⟨S2000000x2, .i32⟩
  | .hbm, ⟨32, _⟩ => ⟨S2000000, .f32⟩
  | .hbm, ⟨33, _⟩ => ⟨S2000000x1, .i32⟩
  | .hbm, ⟨34, _⟩ => ⟨S2000000, .i32⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000x1, .i32⟩
  | .hbm, ⟨47, _⟩ => ⟨S2000000x2, .i32⟩
  | .hbm, ⟨48, _⟩ => ⟨S2000000, .f32⟩
  | .hbm, ⟨49, _⟩ => ⟨S2000000x1x16, .f32⟩
  | .hbm, ⟨50, _⟩ => ⟨S2000000x16, .f32⟩
  | .hbm, ⟨51, _⟩ => ⟨S2000000x1, .f32⟩
  | .hbm, ⟨52, _⟩ => ⟨S2000000x16, .f32⟩
  | .hbm, ⟨53, _⟩ => ⟨S2000000x16, .f32⟩
  | .hbm, ⟨54, _⟩ => ⟨S2000000x1x16, .f32⟩
  | .hbm, ⟨55, _⟩ => ⟨S2000000x16, .f32⟩
  | .hbm, ⟨56, _⟩ => ⟨S2000000x1, .f32⟩
  | .hbm, ⟨57, _⟩ => ⟨S2000000x16, .f32⟩
  | .hbm, ⟨58, _⟩ => ⟨S2000000x16, .f32⟩
  | .hbm, ⟨59, _⟩ => ⟨S2000000x16, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x2 : S_.BroadcastsInDim S2000000x2 (![] : Fin 0 → Fin S2000000x2.rank)
  slices_S2000000x2_S2000000x1_0_0 : S2000000x2.Slices ![0, 0] S2000000x1
  shapeCasts_S2000000x1_S2000000 : S2000000x1.ShapeCasts S2000000
  concatenates_S2000000x1_S2000000x1_S2000000x2_d1 : Shape.Concatenates [S2000000x1, S2000000x1] S2000000x2 1
  slices_S2000000x2_S2000000x1_0_1 : S2000000x2.Slices ![0, 1] S2000000x1
  slices_S2000000x2x16_S2000000x1x16_0_0_0 : S2000000x2x16.Slices ![0, 0, 0] S2000000x1x16
  shapeCasts_S2000000x1x16_S2000000x16 : S2000000x1x16.ShapeCasts S2000000x16
  bcast_S2000000x1_S2000000x16_0_1 : S2000000x1.BroadcastsInDim S2000000x16 (![0, 1] : Fin 2 → Fin S2000000x16.rank)
  slices_S2000000x2x16_S2000000x1x16_0_1_0 : S2000000x2x16.Slices ![0, 1, 0] S2000000x1x16
  gather_S1000000x2_S2000000x1_S2000000x2_1_0_n_n_0_1_12_wf : GatherDims.WF S1000000x2 S2000000x1 S2000000x2 [1] [0] [] [0] [] 1 ![1, 2]
  gather_S1000001x1_S2000000x2_S2000000_n_01_n_n_01_1_11_wf : GatherDims.WF S1000001x1 S2000000x2 S2000000 [] [0, 1] [] [0, 1] [] 1 ![1, 1]

variable [Facts₀]

def gather_S1000000x2_S2000000x1_S2000000x2_1_0_n_n_0_1_12 : GatherDims S1000000x2 S2000000x1 S2000000x2 where
  offsetDims := [1]
  collapsedSliceDims := [0]
  operandBatchingDims := []
  startIndicesBatchingDims := []
  startIndexMap := [0]
  indexVectorDim := 1
  sliceSizes := ![1, 2]
  wf := gather_S1000000x2_S2000000x1_S2000000x2_1_0_n_n_0_1_12_wf
def gather_S1000001x1_S2000000x2_S2000000_n_01_n_n_01_1_11 : GatherDims S1000001x1 S2000000x2 S2000000 where
  offsetDims := []
  collapsedSliceDims := [0, 1]
  operandBatchingDims := []
  startIndicesBatchingDims := []
  startIndexMap := [0, 1]
  indexVectorDim := 1
  sliceSizes := ![1, 1]
  wf := gather_S1000001x1_S2000000x2_S2000000_n_01_n_n_01_1_11_wf

class Facts : Prop extends Facts₀ where

variable [Facts]
-- ==== Proof.Spec.lean ====
/-
  Two-node interpolation on a chain of cells, as ONE function of the argument arrays.

  A query point q lies in the cell cell[q]; that cell's row of the connectivity table names its two end nodes,
  counted from 1; the result at (q, k) weighs the two nodes' values by the point's two shape functions:

      out[q, k] = sf[q, 0, k] · nv[node(q, 0), 0] + sf[q, 1, k] · nv[node(q, 1), 0],
      node(q, j) = conn[cell[q], j] − 1.

  Both programs read their tables through gathers whose start indices are clamped into the table, so the function
  is written with each index word read signed and clamped; under the index ranges below no clamp binds.
  The products and the sum are the instance's own, in one order on both sides: nothing here is particular to the
  extended reals.
-/
import Idealize.ShloMosaic.PureOps.Ideal
import Idealize.ShloMosaic.Lib.ValueIdx
import Idealize.ShloMosaic.Lib.StableHlo.Predicate

noncomputable section

namespace Cert.TwoNode

open Idealize.ShloMosaic Idealize.ShloMosaic.ValueIdx

variable {F : FTy → Type} [FloatOps F]

/-- The table row of query point q's cell: the index word read signed and clamped into the table's 1000000 rows. -/
def cellRow (cell : IVec ⟨1, ![2000000]⟩ 32) (q : Fin 2000000) : Fin 1000000 :=
  ⟨min (cell (ix1 q)).toInt.toNat (1000000 - 1), by omega⟩

/-- End node j of query point q's cell as a word: the table's entry, which counts nodes from 1, less one. -/
def nodeWord (cell : IVec ⟨1, ![2000000]⟩ 32) (conn : IVec ⟨2, ![1000000, 2]⟩ 32) (q : Fin 2000000) (j : Fin 2) :
    BitVec 32 :=
  conn (ix2 (cellRow cell q) j) - 1#32

/-- That node as a row of the nodal values: the word read signed and clamped into the 1000001 rows. -/
def nodeRow (cell : IVec ⟨1, ![2000000]⟩ 32) (conn : IVec ⟨2, ![1000000, 2]⟩ 32) (q : Fin 2000000) (j : Fin 2) :
    Fin 1000001 :=
  ⟨min (nodeWord cell conn q j).toInt.toNat (1000001 - 1), by omega⟩

/-- The interpolated field: at (q, k) the two end nodes' values weighted by the point's two shape functions. -/
def interp (cell : IVec ⟨1, ![2000000]⟩ 32) (nv : FVec F ⟨2, ![1000001, 1]⟩ .f32)
    (sf : FVec F ⟨3, ![2000000, 2, 16]⟩ .f32) (conn : IVec ⟨2, ![1000000, 2]⟩ 32) :
    FVec F ⟨2, ![2000000, 16]⟩ .f32 :=
  fun i => FloatOps.addf
    (FloatOps.mulf (sf (ix3 (i 0) (0 : Fin 2) (i 1))) (nv (ix2 (nodeRow cell conn (i 0) 0) (0 : Fin 1))))
    (FloatOps.mulf (sf (ix3 (i 0) (1 : Fin 2) (i 1))) (nv (ix2 (nodeRow cell conn (i 0) 1) (0 : Fin 1))))

/-- The index ranges: every cell index names a row of the connectivity table, and every entry of that table, counted
    from 1, names a row of the nodal values. -/
structure InRange (cell : IVec ⟨1, ![2000000]⟩ 32) (conn : IVec ⟨2, ![1000000, 2]⟩ 32) : Prop where
  cell_lo : ∀ q : Fin 2000000, 0 ≤ (cell (ix1 q)).toInt
  cell_hi : ∀ q : Fin 2000000, (cell (ix1 q)).toInt < 1000000
  conn_lo : ∀ (r : Fin 1000000) (j : Fin 2), 1 ≤ (conn (ix2 r j)).toInt
  conn_hi : ∀ (r : Fin 1000000) (j : Fin 2), (conn (ix2 r j)).toInt ≤ 1000001

/-! ## Words -/

/-- The signed comparisons as statements about the words read signed. -/
theorem cmpi_sge_iff (a b : BitVec 32) : IntOp.cmpi .sge a b = 1#1 ↔ b.toInt ≤ a.toInt := by
  simp only [IntOp.cmpi, StableHlo.Predicate.ofBool_eq_one_iff, BitVec.sle, decide_eq_true_eq]

theorem cmpi_sle_iff (a b : BitVec 32) : IntOp.cmpi .sle a b = 1#1 ↔ a.toInt ≤ b.toInt := by
  simp only [IntOp.cmpi, StableHlo.Predicate.ofBool_eq_one_iff, BitVec.sle, decide_eq_true_eq]

theorem cmpi_slt_iff (a b : BitVec 32) : IntOp.cmpi .slt a b = 1#1 ↔ a.toInt < b.toInt := by
  simp only [IntOp.cmpi, StableHlo.Predicate.ofBool_eq_one_iff, BitVec.slt, decide_eq_true_eq]

/-- A table entry between 1 and 1000001, less one, is a word between 0 and 1000000: the subtraction does not wrap. -/
theorem toInt_sub_one (w : BitVec 32) (lo : 1 ≤ w.toInt) (hi : w.toInt ≤ 1000001) :
    (w - 1#32).toInt = w.toInt - 1 := by
  rw [BitVec.toInt_sub]
  have h1 : (1#32 : BitVec 32).toInt = 1 := by decide
  rw [h1]
  refine Int.bmod_eq_of_le_mul_two ?_ ?_
  · have : ((2 ^ 32 : Nat) : Int) = 4294967296 := by norm_num
    omega
  · have : ((2 ^ 32 : Nat) : Int) = 4294967296 := by norm_num
    omega

/-- A scalar word constant broadcast to any shape reads that word everywhere. -/
theorem bcast_const {t : Shape} (h : (⟨0, ![]⟩ : Shape).BroadcastsInDim t ![]) (w : BitVec 32) (j : t.Idx) :
    broadcastInDim t ![] h (constantI ⟨0, ![]⟩ 32 w) j = w :=
  (StableHlo.Predicate.bcast_scalar h (by decide) _ j).trans rfl

variable {cell : IVec ⟨1, ![2000000]⟩ 32} {conn : IVec ⟨2, ![1000000, 2]⟩ 32}

/-- Under the ranges an end node's word lies between 0 and 1000000. -/
theorem InRange.nodeWord_lo (h : InRange cell conn) (q : Fin 2000000) (j : Fin 2) :
    0 ≤ (nodeWord cell conn q j).toInt := by
  unfold nodeWord
  rw [toInt_sub_one _ (h.conn_lo _ _) (h.conn_hi _ _)]
  have := h.conn_lo (cellRow cell q) j
  omega

theorem InRange.nodeWord_hi (h : InRange cell conn) (q : Fin 2000000) (j : Fin 2) :
    (nodeWord cell conn q j).toInt ≤ 1000000 := by
  unfold nodeWord
  rw [toInt_sub_one _ (h.conn_lo _ _) (h.conn_hi _ _)]
  have := h.conn_hi (cellRow cell q) j
  omega

end Cert.TwoNode

end
-- ==== Proof.PreRange.lean ====
/-
  The precondition gives the index ranges: its last four conjuncts are jnp.all of a signed comparison of every
  cell index with 0 and 1000000 and of every connectivity entry with 1 and 1000001; a reduction by "and" that is
  one had a one at every element.
-/
import proofs.«424653_j26010321944829_3_alg».proof.Pre_finite_inputs
import proofs.«424653_j26010321944829_3_alg».proof.Proof.Spec
import Idealize.ShloMosaic.Lib.ReduceAll
import Idealize.ShloMosaic.Lib.Affine

noncomputable section

namespace Cert.TwoNode

open Idealize.ShloMosaic Idealize.ShloMosaic.ValueIdx Cert.Pre_finite_inputs Cert.Pre_finite_inputs.Facts

variable {F : FTy → Type} [FloatOps F] [Cert.Pre_finite_inputs.Facts]

/-- The scalar shape has one index. -/
instance subsingleton_scalarIdx : Subsingleton S_.Idx := ⟨fun a b => funext fun d => d.elim0⟩

/-- Where the precondition holds, the cell indices and the connectivity entries are in their ranges. -/
theorem inRange_of_pre (a0 : FVec F S1 .f32) (a1 : IVec S2000000 32) (a2 : FVec F S1000001x1 .f32)
    (a3 : FVec F S2000000x2x16 .f32) (a4 : IVec S1000000x2 32)
    (h : fn (F := F) a0 a1 a2 a3 a4 = fun _ => 1#1) : InRange a1 a4 := by
  have h0 := congrFun h ix0
  dsimp only [fn, fn_part1] at h0
  simp only [andi, IntOp.andi_eq_one] at h0
  obtain ⟨⟨⟨⟨_, hcl⟩, hch⟩, hnl⟩, hnh⟩ := h0
  have z0 : (0#32 : BitVec 32).toInt = 0 := by decide
  have z1 : (1#32 : BitVec 32).toInt = 1 := by decide
  have zc : (1000000#32 : BitVec 32).toInt = 1000000 := by decide
  have zn : (1000001#32 : BitVec 32).toInt = 1000001 := by decide
  refine ⟨fun q => ?_, fun q => ?_, fun r j => ?_, fun r j => ?_⟩
  · have e := (cmpi_sge_iff _ _).mp (Host.reduce_andi_all _ _ _ _ ix0 hcl (ix1 q))
    rw [bcast_const, z0] at e
    exact e
  · have e := (cmpi_slt_iff _ _).mp (Host.reduce_andi_all _ _ _ _ ix0 hch (ix1 q))
    rw [bcast_const, zc] at e
    exact e
  · have e := (cmpi_sge_iff _ _).mp (Host.reduce_andi_all _ _ _ _ ix0 hnl (ix2 r j))
    rw [bcast_const, z1] at e
    exact e
  · have e := (cmpi_sle_iff _ _).mp (Host.reduce_andi_all _ _ _ _ ix0 hnh (ix2 r j))
    rw [bcast_const, zn] at e
    exact e

end Cert.TwoNode

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibScatterSet.lean ====
/-
  STABLEHLO'S SCATTER WITH A `SET` BODY, read at an index, for the dimension numbers that writing a block, a row
  segment or a row into a matrix at ONE literal start index lowers to (`x.at[:, o:o+K].set(v)`, `x.at[r, o:o+K].set(v)`,
  `x.at[o:o+K, :].set(v)`, `x.at[r, :].set(v)`).

  `Host.scatter` folds over the update indices; with a body that returns the update, an operand element on which
  exactly the updates of one value land ends at that value, and one on which no update lands keeps the operand's
  (`scatter_set_hit`, `scatter_set_miss`). For one start index every update index lands on its own operand element, so
  the four shapes below read as: inside the written window the update's element, outside it the operand's.
-/
import Idealize.ShloMosaic.PureOps.Ideal
import Idealize.ShloMosaic.Lib.ValueIdx
import proofs.«424653_j26010321944829_3_alg».proof.Proof.LibGatherScatter

noncomputable section

namespace Idealize.ShloMosaic.ScatterSet

open Idealize.ShloMosaic Idealize.ShloMosaic.ValueIdx Idealize.ShloMosaic.GatherScatter

/-! ## The fold, in general -/

section General
variable {s si u : Shape} {α : Type} {w : Nat}

/-- One step of the fold: update number `n` replaces the element it lands on, if any, by its value. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a `set` body is the fold of that step over the update numbers. -/
private theorem scatter_eq_foldl (d : ScatterDims s si u) (x : s.Idx → α) (idx : IVec si w) (upd : u.Idx → α) :
    Host.scatter d (fun _ b => b) x idx upd = (List.finRange u.numel).foldl (setStep d idx upd) x := rfl

/-- A step whose update lands on `i` leaves the update's value at `i`. -/
private theorem setStep_of_some (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  exact if_pos rfl

/-- A step whose update does not land on `i` leaves the element at `i` as it was. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  cases hres : d.resultIdx? (u.rowMajor.symm n) idx with
  | none => rfl
  | some i' =>
    have hne : i ≠ i' := fun e => h (by rw [hres, e])
    exact if_neg hne

/-- Folding over update numbers none of which lands on `i` leaves the element at `i` as it was. -/
private theorem foldl_miss (d : ScatterDims s si u) (idx : IVec si w) (upd : u.Idx → α) (i : s.Idx)
    (L : List (Fin u.numel)) (r : s.Idx → α)
    (hnone : ∀ n ∈ L, d.resultIdx? (u.rowMajor.symm n) idx ≠ some i) :
    L.foldl (setStep d idx upd) r i = r i := by
  induction L generalizing r with
  | nil => rfl
  | cons n L ih =>
    rw [List.foldl_cons, ih _ fun m hm => hnone m (List.mem_cons_of_mem _ hm),
      setStep_of_ne d idx upd r n i (hnone n List.mem_cons_self)]

/-- Folding over update numbers one of which lands on `i`, all those that do carrying the value `v`, leaves `v`
    at `i`: after the last of them no later step touches `i`. -/
private theorem foldl_hit (d : ScatterDims s si u) (idx : IVec si w) (upd : u.Idx → α) (i : s.Idx) (v : α)
    (L : List (Fin u.numel)) (r : s.Idx → α)
    (hex : ∃ n ∈ L, d.resultIdx? (u.rowMajor.symm n) idx = some i)
    (hall : ∀ n ∈ L, d.resultIdx? (u.rowMajor.symm n) idx = some i → upd (u.rowMajor.symm n) = v) :
    L.foldl (setStep d idx upd) r i = v := by
  induction L generalizing r with
  | nil => obtain ⟨n, hn, _⟩ := hex; cases hn
  | cons n L ih =>
    rw [List.foldl_cons]
    by_cases hL : ∃ m ∈ L, d.resultIdx? (u.rowMajor.symm m) idx = some i
    · exact ih _ hL fun m hm => hall m (List.mem_cons_of_mem _ hm)
    · have hnone : ∀ m ∈ L, d.resultIdx? (u.rowMajor.symm m) idx ≠ some i := fun m hm e => hL ⟨m, hm, e⟩
      have hn : d.resultIdx? (u.rowMajor.symm n) idx = some i := by
        obtain ⟨m, hm, e⟩ := hex
        rcases List.mem_cons.mp hm with rfl | hm'
        · exact e
        · exact absurd e (hnone m hm')
      rw [foldl_miss d idx upd i L _ hnone, setStep_of_some d idx upd r n i hn]
      exact hall n List.mem_cons_self hn

/-- HIT: if update index `j` lands on `i` and every update index landing on `i` carries `j`'s value, the result at
    `i` is that value. -/
theorem scatter_set_hit (d : ScatterDims s si u) (x : s.Idx → α) (idx : IVec si w) (upd : u.Idx → α) (i : s.Idx)
    (j : u.Idx) (hj : d.resultIdx? j idx = some i)
    (hall : ∀ j', d.resultIdx? j' idx = some i → upd j' = upd j) :
    Host.scatter d (fun _ b => b) x idx upd i = upd j := by
  rw [scatter_eq_foldl]
  refine foldl_hit d idx upd i (upd j) _ x ⟨u.rowMajor j, List.mem_finRange _, ?_⟩ fun n _ hn => hall _ hn
  rw [Equiv.symm_apply_apply]
  exact hj

/-- MISS: if no update index lands on `i`, the result at `i` is the operand's element. -/
theorem scatter_set_miss (d : ScatterDims s si u) (x : s.Idx → α) (idx : IVec si w) (upd : u.Idx → α) (i : s.Idx)
    (hnone : ∀ j, d.resultIdx? j idx ≠ some i) :
    Host.scatter d (fun _ b => b) x idx upd i = x i := by
  rw [scatter_eq_foldl]
  exact foldl_miss d idx upd i _ x fun n _ => hnone _

end General

/-! ## A block of columns: `x.at[:, o:o+K].set(v)`

Operand `[R, C]`, scatter indices `[1]` (the start column), updates `[R, K]`: update_window_dims `[0, 1]`,
inserted_window_dims `[]`, scatter_dims_to_operand_dims `[1]`, index_vector_dim 0. -/

abbrev colBlockDims (R C K : Nat) (wf : ScatterDims.WF ⟨2, ![R, C]⟩ ⟨1, ![1]⟩ ⟨2, ![R, K]⟩ [0, 1] [] [1] 0) :
    ScatterDims ⟨2, ![R, C]⟩ ⟨1, ![1]⟩ ⟨2, ![R, K]⟩ where
  updateWindowDims := [0, 1]
  insertedWindowDims := []
  scatterDimsToOperandDims := [1]
  indexVectorDim := 0
  wf := wf

section ColBlock
variable {R C K w : Nat} (wf : ScatterDims.WF ⟨2, ![R, C]⟩ ⟨1, ![1]⟩ ⟨2, ![R, K]⟩ [0, 1] [] [1] 0)

/-- The scatter index names no row: on the operand's row axis the window starts at `0`. -/
private theorem colBlock_start0 (idx : IVec ⟨1, ![1]⟩ w) (j : (⟨2, ![R, K]⟩ : Shape).Idx) :
    (colBlockDims R C K wf).start j idx 0 = 0 := by
  unfold ScatterDims.start
  rw [dif_neg (by decide : (0 : Fin 2) ∉ ([1] : List (Fin 2)))]

/-- On the operand's column axis the window starts at the scatter index, read signed. -/
private theorem colBlock_start1 (idx : IVec ⟨1, ![1]⟩ w) (j : (⟨2, ![R, K]⟩ : Shape).Idx) :
    (colBlockDims R C K wf).start j idx 1 = (idx (ix1 0)).toInt := by
  have hmem : (1 : Fin 2) ∈ (colBlockDims R C K wf).scatterDimsToOperandDims := List.mem_singleton.mpr rfl
  have hsi : (colBlockDims R C K wf).siIdx j ⟨List.idxOf (1 : Fin 2) (colBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The window coordinate on the operand's row axis is the update's row. -/
private theorem colBlock_window0 (a : Fin R) (b : Fin K) : (colBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem colBlock_window1 (a : Fin R) (b : Fin K) : (colBlockDims R C K wf).window (ix2 a b) 1 = b.val := by
  unfold ScatterDims.window
  rw [dif_pos (mem_kept (by decide : (1 : Fin 2) ∉ ([] : List (Fin 2))))]
  rfl

/-- Update `(a, b)` lands on element `(r, c)` exactly when `a` is `r` and the start column plus `b` is `c`. -/
private theorem colBlock_resultIdx (idx : IVec ⟨1, ![1]⟩ w) (o : Nat) (ho : (idx (ix1 0)).toInt = (o : Int))
    (a : Fin R) (b : Fin K) (r : Fin R) (c : Fin C) :
    (colBlockDims R C K wf).resultIdx? (ix2 a b) idx = some (ix2 r c) ↔ (a = r ∧ o + b.val = c.val) := by
  rw [resultIdx?_eq_some_iff]
  constructor
  · intro H
    have h0 := H 0
    have h1 := H 1
    rw [colBlock_start0, colBlock_window0, zero_add] at h0
    rw [colBlock_start1, colBlock_window1, ho] at h1
    have h0' : (a.val : Int) = (r.val : Int) := h0
    have h1' : (o : Int) + (b.val : Int) = (c.val : Int) := h1
    exact ⟨Fin.ext (by omega), by omega⟩
  · rintro ⟨rfl, H⟩ e
    match e with
    | ⟨0, _⟩ =>
      show (colBlockDims R C K wf).start (ix2 a b) idx 0 + ((colBlockDims R C K wf).window (ix2 a b) 0 : Int) = (a.val : Int)
      rw [colBlock_start0, colBlock_window0, zero_add]
    | ⟨1, _⟩ =>
      show (colBlockDims R C K wf).start (ix2 a b) idx 1 + ((colBlockDims R C K wf).window (ix2 a b) 1 : Int) = (c.val : Int)
      rw [colBlock_start1, colBlock_window1, ho]
      omega

end ColBlock

/-- Columns `o … o+K−1` hold the update, the others the operand. -/
theorem colBlockSet_apply {α : Type} {R C K w : Nat} (wf : ScatterDims.WF ⟨2, ![R, C]⟩ ⟨1, ![1]⟩ ⟨2, ![R, K]⟩ [0, 1] [] [1] 0)
    (x : (⟨2, ![R, C]⟩ : Shape).Idx → α) (idx : IVec ⟨1, ![1]⟩ w) (upd : (⟨2, ![R, K]⟩ : Shape).Idx → α)
    (o : Nat) (ho : (idx (ix1 0)).toInt = (o : Int)) (r : Fin R) (c : Fin C) :
    Host.scatter (colBlockDims R C K wf) (fun _ b => b) x idx upd (ix2 r c)
      = if h : o ≤ c.val ∧ c.val < o + K then upd (ix2 r ⟨c.val - o, by omega⟩) else x (ix2 r c) := by
  by_cases h : o ≤ c.val ∧ c.val < o + K
  · rw [dif_pos h]
    refine scatter_set_hit _ x idx upd _ (ix2 r ⟨c.val - o, by omega⟩) ?_ ?_
    · exact (colBlock_resultIdx wf idx o ho _ _ _ _).mpr ⟨rfl, by show o + (c.val - o) = c.val; omega⟩
    · intro j' hj'
      obtain ⟨a, b, rfl⟩ : ∃ (a : Fin R) (b : Fin K), j' = ix2 a b := ⟨j' 0, j' 1, eq_ix2 j'⟩
      obtain ⟨rfl, hb⟩ := (colBlock_resultIdx wf idx o ho _ _ _ _).mp hj'
      have hbe : b = ⟨c.val - o, by omega⟩ := Fin.ext (by show b.val = c.val - o; omega)
      rw [hbe]
  · rw [dif_neg h]
    refine scatter_set_miss _ x idx upd _ fun j' hj' => h ?_
    obtain ⟨a, b, rfl⟩ : ∃ (a : Fin R) (b : Fin K), j' = ix2 a b := ⟨j' 0, j' 1, eq_ix2 j'⟩
    obtain ⟨_, hb⟩ := (colBlock_resultIdx wf idx o ho _ _ _ _).mp hj'
    have := b.isLt
    omega

/-! ## A block of rows: `x.at[o:o+K, :].set(v)`

Operand `[R, C]`, scatter indices `[1]` (the start row), updates `[K, C]`: update_window_dims `[0, 1]`,
inserted_window_dims `[]`, scatter_dims_to_operand_dims `[0]`, index_vector_dim 0. -/

abbrev rowBlockDims (R C K : Nat) (wf : ScatterDims.WF ⟨2, ![R, C]⟩ ⟨1, ![1]⟩ ⟨2, ![K, C]⟩ [0, 1] [] [0] 0) :
    ScatterDims ⟨2, ![R, C]⟩ ⟨1, ![1]⟩ ⟨2, ![K, C]⟩ where
  updateWindowDims := [0, 1]
  insertedWindowDims := []
  scatterDimsToOperandDims := [0]
  indexVectorDim := 0
  wf := wf

section RowBlock
variable {R C K w : Nat} (wf : ScatterDims.WF ⟨2, ![R, C]⟩ ⟨1, ![1]⟩ ⟨2, ![K, C]⟩ [0, 1] [] [0] 0)

/-- On the operand's row axis the window starts at the scatter index, read signed. -/
private theorem rowBlock_start0 (idx : IVec ⟨1, ![1]⟩ w) (j : (⟨2, ![K, C]⟩ : Shape).Idx) :
    (rowBlockDims R C K wf).start j idx 0 = (idx (ix1 0)).toInt := by
  have hmem : (0 : Fin 2) ∈ (rowBlockDims R C K wf).scatterDimsToOperandDims := List.mem_singleton.mpr rfl
  have hsi : (rowBlockDims R C K wf).siIdx j ⟨List.idxOf (0 : Fin 2) (rowBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem rowBlock_start1 (idx : IVec ⟨1, ![1]⟩ w) (j : (⟨2, ![K, C]⟩ : Shape).Idx) :
    (rowBlockDims R C K wf).start j idx 1 = 0 := by
  unfold ScatterDims.start
  rw [dif_neg (by decide : (1 : Fin 2) ∉ ([0] : List (Fin 2)))]

/-- The window coordinate on the operand's row axis is the update's row. -/
private theorem rowBlock_window0 (a : Fin K) (b : Fin C) : (rowBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem rowBlock_window1 (a : Fin K) (b : Fin C) : (rowBlockDims R C K wf).window (ix2 a b) 1 = b.val := by
  unfold ScatterDims.window
  rw [dif_pos (mem_kept (by decide : (1 : Fin 2) ∉ ([] : List (Fin 2))))]
  rfl

/-- Update `(a, b)` lands on element `(r, c)` exactly when the start row plus `a` is `r` and `b` is `c`. -/
private theorem rowBlock_resultIdx (idx : IVec ⟨1, ![1]⟩ w) (o : Nat) (ho : (idx (ix1 0)).toInt = (o : Int))
    (a : Fin K) (b : Fin C) (r : Fin R) (c : Fin C) :
    (rowBlockDims R C K wf).resultIdx? (ix2 a b) idx = some (ix2 r c) ↔ (o + a.val = r.val ∧ b = c) := by
  rw [resultIdx?_eq_some_iff]
  constructor
  · intro H
    have h0 := H 0
    have h1 := H 1
    rw [rowBlock_start0, rowBlock_window0, ho] at h0
    rw [rowBlock_start1, rowBlock_window1, zero_add] at h1
    have h0' : (o : Int) + (a.val : Int) = (r.val : Int) := h0
    have h1' : (b.val : Int) = (c.val : Int) := h1
    exact ⟨by omega, Fin.ext (by omega)⟩
  · rintro ⟨H, rfl⟩ e
    match e with
    | ⟨0, _⟩ =>
      show (rowBlockDims R C K wf).start (ix2 a b) idx 0 + ((rowBlockDims R C K wf).window (ix2 a b) 0 : Int) = (r.val : Int)
      rw [rowBlock_start0, rowBlock_window0, ho]
      omega
    | ⟨1, _⟩ =>
      show (rowBlockDims R C K wf).start (ix2 a b) idx 1 + ((rowBlockDims R C K wf).window (ix2 a b) 1 : Int) = (b.val : Int)
      rw [rowBlock_start1, rowBlock_window1, zero_add]

end RowBlock

/-- Rows `o … o+K−1` hold the update, the others the operand. -/
theorem rowBlockSet_apply {α : Type} {R C K w : Nat} (wf : ScatterDims.WF ⟨2, ![R, C]⟩ ⟨1, ![1]⟩ ⟨2, ![K, C]⟩ [0, 1] [] [0] 0)
    (x : (⟨2, ![R, C]⟩ : Shape).Idx → α) (idx : IVec ⟨1, ![1]⟩ w) (upd : (⟨2, ![K, C]⟩ : Shape).Idx → α)
    (o : Nat) (ho : (idx (ix1 0)).toInt = (o : Int)) (r : Fin R) (c : Fin C) :
    Host.scatter (rowBlockDims R C K wf) (fun _ b => b) x idx upd (ix2 r c)
      = if h : o ≤ r.val ∧ r.val < o + K then upd (ix2 ⟨r.val - o, by omega⟩ c) else x (ix2 r c) := by
  by_cases h : o ≤ r.val ∧ r.val < o + K
  · rw [dif_pos h]
    refine scatter_set_hit _ x idx upd _ (ix2 ⟨r.val - o, by omega⟩ c) ?_ ?_
    · exact (rowBlock_resultIdx wf idx o ho _ _ _ _).mpr ⟨by show o + (r.val - o) = r.val; omega, rfl⟩
    · intro j' hj'
      obtain ⟨a, b, rfl⟩ : ∃ (a : Fin K) (b : Fin C), j' = ix2 a b := ⟨j' 0, j' 1, eq_ix2 j'⟩
      obtain ⟨ha, rfl⟩ := (rowBlock_resultIdx wf idx o ho _ _ _ _).mp hj'
      have hae : a = ⟨r.val - o, by omega⟩ := Fin.ext (by show a.val = r.val - o; omega)
      rw [hae]
  · rw [dif_neg h]
    refine scatter_set_miss _ x idx upd _ fun j' hj' => h ?_
    obtain ⟨a, b, rfl⟩ : ∃ (a : Fin K) (b : Fin C), j' = ix2 a b := ⟨j' 0, j' 1, eq_ix2 j'⟩
    obtain ⟨ha, _⟩ := (rowBlock_resultIdx wf idx o ho _ _ _ _).mp hj'
    have := a.isLt
    omega

/-! ## One whole row: `x.at[o, :].set(v)`

Operand `[R, C]`, scatter indices `[1]` (the row), updates `[C]`: update_window_dims `[0]`, inserted_window_dims
`[0]`, scatter_dims_to_operand_dims `[0]`, index_vector_dim 0. -/

abbrev oneRowDims (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

section OneRow
variable {R C w : Nat} (wf : ScatterDims.WF ⟨2, ![R, C]⟩ ⟨1, ![1]⟩ ⟨1, ![C]⟩ [0] [0] [0] 0)

/-- On the operand's row axis the window starts at the scatter index, read signed. -/
private theorem oneRow_start0 (idx : IVec ⟨1, ![1]⟩ w) (j : (⟨1, ![C]⟩ : Shape).Idx) :
    (oneRowDims R C wf).start j idx 0 = (idx (ix1 0)).toInt := by
  have hmem : (0 : Fin 2) ∈ (oneRowDims R C wf).scatterDimsToOperandDims := List.mem_singleton.mpr rfl
  have hsi : (oneRowDims R C wf).siIdx j ⟨List.idxOf (0 : Fin 2) (oneRowDims R C wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem oneRow_start1 (idx : IVec ⟨1, ![1]⟩ w) (j : (⟨1, ![C]⟩ : Shape).Idx) :
    (oneRowDims R C wf).start j idx 1 = 0 := by
  unfold ScatterDims.start
  rw [dif_neg (by decide : (1 : Fin 2) ∉ ([0] : List (Fin 2)))]

/-- The row axis is inserted: the window coordinate on it is `0`. -/
private theorem oneRow_window0 (j : (⟨1, ![C]⟩ : Shape).Idx) : (oneRowDims R C wf).window j 0 = 0 := by
  unfold ScatterDims.window
  rw [dif_neg (not_mem_kept (List.mem_singleton.mpr rfl))]

/-- The window coordinate on the operand's column axis is the update's coordinate. -/
private theorem oneRow_window1 (b : Fin C) : (oneRowDims R C wf).window (ix1 b) 1 = b.val := by
  unfold ScatterDims.window
  rw [dif_pos (mem_kept (by decide : (1 : Fin 2) ∉ ([0] : List (Fin 2))))]
  rfl

/-- Update `b` lands on element `(r, c)` exactly when the scatter index is `r` and `b` is `c`. -/
private theorem oneRow_resultIdx (idx : IVec ⟨1, ![1]⟩ w) (o : Nat) (ho : (idx (ix1 0)).toInt = (o : Int))
    (b : Fin C) (r : Fin R) (c : Fin C) :
    (oneRowDims R C wf).resultIdx? (ix1 b) idx = some (ix2 r c) ↔ (r.val = o ∧ b = c) := by
  rw [resultIdx?_eq_some_iff]
  constructor
  · intro H
    have h0 := H 0
    have h1 := H 1
    rw [oneRow_start0, oneRow_window0, ho, Nat.cast_zero, add_zero] at h0
    rw [oneRow_start1, oneRow_window1, zero_add] at h1
    have h0' : (o : Int) = (r.val : Int) := h0
    have h1' : (b.val : Int) = (c.val : Int) := h1
    exact ⟨by omega, Fin.ext (by omega)⟩
  · rintro ⟨H, rfl⟩ e
    match e with
    | ⟨0, _⟩ =>
      show (oneRowDims R C wf).start (ix1 b) idx 0 + ((oneRowDims R C wf).window (ix1 b) 0 : Int) = (r.val : Int)
      rw [oneRow_start0, oneRow_window0, ho, Nat.cast_zero, add_zero]
      omega
    | ⟨1, _⟩ =>
      show (oneRowDims R C wf).start (ix1 b) idx 1 + ((oneRowDims R C wf).window (ix1 b) 1 : Int) = (b.val : Int)
      rw [oneRow_start1, oneRow_window1, zero_add]

end OneRow

/-- Row `o` holds the update, the others the operand. -/
theorem oneRowSet_apply {α : Type} {R C w : Nat} (wf : ScatterDims.WF ⟨2, ![R, C]⟩ ⟨1, ![1]⟩ ⟨1, ![C]⟩ [0] [0] [0] 0)
    (x : (⟨2, ![R, C]⟩ : Shape).Idx → α) (idx : IVec ⟨1, ![1]⟩ w) (upd : (⟨1, ![C]⟩ : Shape).Idx → α)
    (o : Nat) (ho : (idx (ix1 0)).toInt = (o : Int)) (r : Fin R) (c : Fin C) :
    Host.scatter (oneRowDims R C wf) (fun _ b => b) x idx upd (ix2 r c)
      = if r.val = o then upd (ix1 c) else x (ix2 r c) := by
  by_cases h : r.val = o
  · rw [if_pos h]
    refine scatter_set_hit _ x idx upd _ (ix1 c) ?_ ?_
    · exact (oneRow_resultIdx wf idx o ho _ _ _).mpr ⟨h, rfl⟩
    · intro j' hj'
      obtain ⟨b, rfl⟩ : ∃ b : Fin C, j' = ix1 b := ⟨j' 0, eq_ix1 j'⟩
      obtain ⟨_, rfl⟩ := (oneRow_resultIdx wf idx o ho _ _ _).mp hj'
      rfl
  · rw [if_neg h]
    refine scatter_set_miss _ x idx upd _ fun j' hj' => h ?_
    obtain ⟨b, rfl⟩ : ∃ b : Fin C, j' = ix1 b := ⟨j' 0, eq_ix1 j'⟩
    exact ((oneRow_resultIdx wf idx o ho _ _ _).mp hj').1

/-! ## A segment of one row: `x.at[r₀, o:o+K].set(v)`

Operand `[R, C]`, scatter indices `[2]` (the row and the start column), updates `[K]`: update_window_dims `[0]`,
inserted_window_dims `[0]`, scatter_dims_to_operand_dims `[0, 1]`, index_vector_dim 0. -/

abbrev rowSegDims (R C K : Nat) (wf : ScatterDims.WF ⟨2, ![R, C]⟩ ⟨1, ![2]⟩ ⟨1, ![K]⟩ [0] [0] [0, 1] 0) :
    ScatterDims ⟨2, ![R, C]⟩ ⟨1, ![2]⟩ ⟨1, ![K]⟩ where
  updateWindowDims := [0]
  insertedWindowDims := [0]
  scatterDimsToOperandDims := [0, 1]
  indexVectorDim := 0
  wf := wf

section RowSeg
variable {R C K w : Nat} (wf : ScatterDims.WF ⟨2, ![R, C]⟩ ⟨1, ![2]⟩ ⟨1, ![K]⟩ [0] [0] [0, 1] 0)

/-- On the operand's row axis the window starts at the first scatter index, read signed. -/
private theorem rowSeg_start0 (idx : IVec ⟨1, ![2]⟩ w) (j : (⟨1, ![K]⟩ : Shape).Idx) :
    (rowSegDims R C K wf).start j idx 0 = (idx (ix1 0)).toInt := by
  have hmem : (0 : Fin 2) ∈ (rowSegDims R C K wf).scatterDimsToOperandDims :=
    (by decide : (0 : Fin 2) ∈ ([0, 1] : List (Fin 2)))
  have hsi : (rowSegDims R C K wf).siIdx j ⟨List.idxOf (0 : Fin 2) (rowSegDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- On the operand's column axis the window starts at the second scatter index, read signed. -/
private theorem rowSeg_start1 (idx : IVec ⟨1, ![2]⟩ w) (j : (⟨1, ![K]⟩ : Shape).Idx) :
    (rowSegDims R C K wf).start j idx 1 = (idx (ix1 1)).toInt := by
  have hmem : (1 : Fin 2) ∈ (rowSegDims R C K wf).scatterDimsToOperandDims :=
    (by decide : (1 : Fin 2) ∈ ([0, 1] : List (Fin 2)))
  have hsi : (rowSegDims R C K wf).siIdx j ⟨List.idxOf (1 : Fin 2) (rowSegDims R C K wf).scatterDimsToOperandDims,
      List.idxOf_lt_length_iff.2 hmem⟩ = ix1 1 := by
    funext b; refine Fin.ext ?_
    match b with
    | ⟨0, _⟩ => rfl
  unfold ScatterDims.start
  rw [dif_pos hmem, hsi]

/-- The row axis is inserted: the window coordinate on it is `0`. -/
private theorem rowSeg_window0 (j : (⟨1, ![K]⟩ : Shape).Idx) : (rowSegDims R C K wf).window j 0 = 0 := by
  unfold ScatterDims.window
  rw [dif_neg (not_mem_kept (List.mem_singleton.mpr rfl))]

/-- The window coordinate on the operand's column axis is the update's coordinate. -/
private theorem rowSeg_window1 (b : Fin K) : (rowSegDims R C K wf).window (ix1 b) 1 = b.val := by
  unfold ScatterDims.window
  rw [dif_pos (mem_kept (by decide : (1 : Fin 2) ∉ ([0] : List (Fin 2))))]
  rfl

/-- Update `b` lands on element `(r, c)` exactly when the first scatter index is `r` and the second plus `b` is
    `c`. -/
private theorem rowSeg_resultIdx (idx : IVec ⟨1, ![2]⟩ w) (r₀ o : Nat) (hr : (idx (ix1 0)).toInt = (r₀ : Int))
    (ho : (idx (ix1 1)).toInt = (o : Int)) (b : Fin K) (r : Fin R) (c : Fin C) :
    (rowSegDims R C K wf).resultIdx? (ix1 b) idx = some (ix2 r c) ↔ (r.val = r₀ ∧ o + b.val = c.val) := by
  rw [resultIdx?_eq_some_iff]
  constructor
  · intro H
    have h0 := H 0
    have h1 := H 1
    rw [rowSeg_start0, rowSeg_window0, hr, Nat.cast_zero, add_zero] at h0
    rw [rowSeg_start1, rowSeg_window1, ho] at h1
    have h0' : (r₀ : Int) = (r.val : Int) := h0
    have h1' : (o : Int) + (b.val : Int) = (c.val : Int) := h1
    exact ⟨by omega, by omega⟩
  · rintro ⟨H0, H1⟩ e
    match e with
    | ⟨0, _⟩ =>
      show (rowSegDims R C K wf).start (ix1 b) idx 0 + ((rowSegDims R C K wf).window (ix1 b) 0 : Int) = (r.val : Int)
      rw [rowSeg_start0, rowSeg_window0, hr, Nat.cast_zero, add_zero]
      omega
    | ⟨1, _⟩ =>
      show (rowSegDims R C K wf).start (ix1 b) idx 1 + ((rowSegDims R C K wf).window (ix1 b) 1 : Int) = (c.val : Int)
      rw [rowSeg_start1, rowSeg_window1, ho]
      omega

end RowSeg

/-- Columns `o … o+K−1` of row `r₀` hold the update, every other element the operand. -/
theorem rowSegSet_apply {α : Type} {R C K w : Nat} (wf : ScatterDims.WF ⟨2, ![R, C]⟩ ⟨1, ![2]⟩ ⟨1, ![K]⟩ [0] [0] [0, 1] 0)
    (x : (⟨2, ![R, C]⟩ : Shape).Idx → α) (idx : IVec ⟨1, ![2]⟩ w) (upd : (⟨1, ![K]⟩ : Shape).Idx → α)
    (r₀ o : Nat) (hr : (idx (ix1 0)).toInt = (r₀ : Int)) (ho : (idx (ix1 1)).toInt = (o : Int)) (r : Fin R) (c : Fin C) :
    Host.scatter (rowSegDims R C K wf) (fun _ b => b) x idx upd (ix2 r c)
      = if h : r.val = r₀ ∧ o ≤ c.val ∧ c.val < o + K then upd (ix1 ⟨c.val - o, by omega⟩) else x (ix2 r c) := by
  by_cases h : r.val = r₀ ∧ o ≤ c.val ∧ c.val < o + K
  · rw [dif_pos h]
    refine scatter_set_hit _ x idx upd _ (ix1 ⟨c.val - o, by omega⟩) ?_ ?_
    · exact (rowSeg_resultIdx wf idx r₀ o hr ho _ _ _).mpr ⟨h.1, by show o + (c.val - o) = c.val; omega⟩
    · intro j' hj'
      obtain ⟨b, rfl⟩ : ∃ b : Fin K, j' = ix1 b := ⟨j' 0, eq_ix1 j'⟩
      obtain ⟨_, hb⟩ := (rowSeg_resultIdx wf idx r₀ o hr ho _ _ _).mp hj'
      have hbe : b = ⟨c.val - o, by omega⟩ := Fin.ext (by show b.val = c.val - o; omega)
      rw [hbe]
  · rw [dif_neg h]
    refine scatter_set_miss _ x idx upd _ fun j' hj' => h ?_
    obtain ⟨b, rfl⟩ : ∃ b : Fin K, j' = ix1 b := ⟨j' 0, eq_ix1 j'⟩
    obtain ⟨hr', hb⟩ := (rowSeg_resultIdx wf idx r₀ o hr ho _ _ _).mp hj'
    have := b.isLt
    exact ⟨hr', by omega, by omega⟩

end Idealize.ShloMosaic.ScatterSet

end
-- ==== Proof.LibPairIndex.lean ====
/-
  A MATRIX READ AND WRITTEN AT ONE INDEX PAIR PER ROW, read at an index.

  `x[r, c]` of a matrix `x : [N, N']` at integer arrays `r, c : [M]` is a `stablehlo.gather` whose start indices are
  the pairs `[M, 2]` (offset_dims `[]`, collapsed_slice_dims `[0, 1]`, start_index_map `[0, 1]`, index_vector_dim 1,
  slice_sizes `[1, 1]`), and `x.at[r, c].set(v)` is a `stablehlo.scatter` over the same pairs whose body returns the
  update. The pairs themselves are a `concatenate` along axis 1 of the two index vectors, each broadcast to a column.

  * `pairGather_apply`: the gather's element `j` is the operand at the pair `(idx[j, 0], idx[j, 1])`, each component
    read SIGNED and CLAMPED into the operand; `pairGather_apply_inRange` is the same when the pair is an operand index.
  * `pairSet_apply`: when pair `j`'s row component is `j` itself (`r = arange`), every update lands in its own row, so
    the result at `(r, c)` is update `r` when pair `r`'s column component is `c`, and the operand's element otherwise.
  * `pairs_col0` / `pairs_col1` / `column_apply`: the pairs array read at `(j, 0)` and `(j, 1)`.
  * `wrap_of_nonneg`: jnp's normalisation of a negative index (`select (i < 0) (i + n) i`) leaves a non-negative one.
-/
import Idealize.ShloMosaic.PureOps.Ideal
import Idealize.ShloMosaic.Lib.ValueIdx
import Idealize.ShloMosaic.Lib.Pipeline.Value
import proofs.«424653_j26010321944829_3_alg».proof.Proof.LibGatherScatter
import proofs.«424653_j26010321944829_3_alg».proof.Proof.LibScatterSet

noncomputable section

namespace Idealize.ShloMosaic.PairIndex

open Idealize.ShloMosaic Idealize.ShloMosaic.ValueIdx Idealize.ShloMosaic.GatherScatter Idealize.ShloMosaic.ScatterSet

/-! ## The gather at index pairs -/

section PairGather
variable {α : Type}

/-- The dimension numbers of `x[r, c]` for an operand `[N, N']`, start indices `[M, 2]` and result `[M]`; their
    conditions `wf` are decided on a program's literal shapes. -/
abbrev pairGatherDims (N N' M : Nat)
    (wf : GatherDims.WF ⟨2, ![N, N']⟩ ⟨2, ![M, 2]⟩ ⟨1, ![M]⟩ [] [0, 1] [] [0, 1] [] 1 ![1, 1]) :
    GatherDims ⟨2, ![N, N']⟩ ⟨2, ![M, 2]⟩ ⟨1, ![M]⟩ where
  offsetDims := []
  collapsedSliceDims := [0, 1]
  operandBatchingDims := []
  startIndicesBatchingDims := []
  startIndexMap := [0, 1]
  indexVectorDim := 1
  sliceSizes := ![1, 1]
  wf := wf

variable {N N' M w : Nat} (wf : GatherDims.WF ⟨2, ![N, N']⟩ ⟨2, ![M, 2]⟩ ⟨1, ![M]⟩ [] [0, 1] [] [0, 1] [] 1 ![1, 1])

/-- Result element `j`'s slice starts, on the operand's row axis, at `idx[j, 0]` read signed and clamped into
    `[0, N − 1]`. -/
theorem pairGather_start0 (idx : IVec ⟨2, ![M, 2]⟩ w) (j : Fin M) :
    (pairGatherDims N N' M wf).start (ix1 j) idx 0 = min (idx (ix2 j 0)).toInt.toNat (N - 1) := by
  have hmem : (0 : Fin 2) ∈ (pairGatherDims N N' M wf).startIndexMap :=
    (by decide : (0 : Fin 2) ∈ ([0, 1] : List (Fin 2)))
  have hsi : (pairGatherDims N N' M wf).siIdx (ix1 j) ⟨List.idxOf (0 : Fin 2) (pairGatherDims N N' M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- … and on the column axis at `idx[j, 1]` read signed and clamped into `[0, N' − 1]`. -/
theorem pairGather_start1 (idx : IVec ⟨2, ![M, 2]⟩ w) (j : Fin M) :
    (pairGatherDims N N' M wf).start (ix1 j) idx 1 = min (idx (ix2 j 1)).toInt.toNat (N' - 1) := by
  have hmem : (1 : Fin 2) ∈ (pairGatherDims N N' M wf).startIndexMap :=
    (by decide : (1 : Fin 2) ∈ ([0, 1] : List (Fin 2)))
  have hsi : (pairGatherDims N N' M wf).siIdx (ix1 j) ⟨List.idxOf (1 : Fin 2) (pairGatherDims N N' M wf).startIndexMap,
      List.idxOf_lt_length_iff.2 hmem⟩ = ix2 j 1 := by
    funext b; refine Fin.ext ?_
    match b with
    | ⟨0, _⟩ => rfl
    | ⟨1, _⟩ => rfl
  unfold GatherDims.start
  rw [dif_pos hmem, hsi]
  rfl

/-- THE GATHER READ AT `j`: the operand at the pair `(idx[j, 0], idx[j, 1])`, each component read signed and
    clamped into the operand. -/
theorem pairGather_apply (hN : 0 < N) (hN' : 0 < N')
    (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) :
    Host.gather (pairGatherDims N N' M wf) x idx (ix1 j)
      = x (ix2 ⟨min (idx (ix2 j 0)).toInt.toNat (N - 1), by omega⟩
               ⟨min (idx (ix2 j 1)).toInt.toNat (N' - 1), by omega⟩) := by
  unfold Host.gather
  congr 1
  funext a
  refine Fin.ext ?_
  rw [operandIdx_val, batchCoord_of_nil _ rfl, Nat.add_zero]
  match a with
  | ⟨0, _⟩ =>
    show (pairGatherDims N N' M wf).start (ix1 j) idx 0 + (pairGatherDims N N' M wf).offCoord (ix1 j) 0 = _
    rw [pairGather_start0, offCoord_of_collapsed _ _ (by decide : (0 : Fin 2) ∈ ([0, 1] : List (Fin 2)))]
    rfl
  | ⟨1, _⟩ =>
    show (pairGatherDims N N' M wf).start (ix1 j) idx 1 + (pairGatherDims N N' M wf).offCoord (ix1 j) 1 = _
    rw [pairGather_start1, offCoord_of_collapsed _ _ (by decide : (1 : Fin 2) ∈ ([0, 1] : List (Fin 2)))]
    rfl

/-- The gather at `j` when its pair is the operand index `(r, c)`: the operand there. -/
theorem pairGather_apply_inRange (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) (r : Fin N) (c : Fin N')
    (h0 : (idx (ix2 j 0)).toInt = (r.val : Int)) (h1 : (idx (ix2 j 1)).toInt = (c.val : Int)) :
    Host.gather (pairGatherDims N N' M wf) x idx (ix1 j) = x (ix2 r c) := by
  have hr := r.isLt
  have hc := c.isLt
  rw [pairGather_apply (by omega) (by omega) wf x idx j]
  congr 1
  funext a
  refine Fin.ext ?_
  match a with
  | ⟨0, _⟩ =>
    show min (idx (ix2 j 0)).toInt.toNat (N - 1) = r.val
    rw [h0, Int.toNat_natCast]; omega
  | ⟨1, _⟩ =>
    show min (idx (ix2 j 1)).toInt.toNat (N' - 1) = c.val
    rw [h1, Int.toNat_natCast]; omega

end PairGather

/-! ## Scalars set into a matrix, one per row -/

section PairSet
variable {α : Type} {N N' w : Nat}

/-- SET AT ONE PAIR PER ROW, read at `(r, c)`: with pair `j`'s row component `j` itself, update `r` when pair `r`'s column
    component, read signed, is `c`; the operand's element otherwise (a column component outside the operand lands
    nowhere). -/
theorem pairSet_apply (wf : ScatterDims.WF ⟨2, ![N, N']⟩ ⟨2, ![N, 2]⟩ ⟨1, ![N]⟩ [] [0, 1] [0, 1] 1)
    (x : (⟨2, ![N, N']⟩ : Shape).Idx → α) (idx : IVec ⟨2, ![N, 2]⟩ w) (upd : (⟨1, ![N]⟩ : Shape).Idx → α)
    (hrow : ∀ j : Fin N, (idx (ix2 j 0)).toInt = (j.val : Int)) (r : Fin N) (c : Fin N') :
    Host.scatter (pairScatterDims N N' N wf) (fun _ b => b) x idx upd (ix2 r c)
      = if (idx (ix2 r 1)).toInt = (c.val : Int) then upd (ix1 r) else x (ix2 r c) := by
  by_cases h : (idx (ix2 r 1)).toInt = (c.val : Int)
  · rw [if_pos h]
    refine scatter_set_hit _ x idx upd _ (ix1 r) ((pairScatter_resultIdx wf idx r r c).mpr ⟨hrow r, h⟩) ?_
    intro j' hj'
    obtain ⟨j, rfl⟩ : ∃ j : Fin N, j' = ix1 j := ⟨j' 0, eq_ix1 j'⟩
    have h0 := ((pairScatter_resultIdx wf idx j r c).mp hj').1
    rw [hrow j] at h0
    have e : j = r := Fin.ext (by exact_mod_cast h0)
    rw [e]
  · rw [if_neg h]
    refine scatter_set_miss _ x idx upd _ fun j' hj' => h ?_
    obtain ⟨j, rfl⟩ : ∃ j : Fin N, j' = ix1 j := ⟨j' 0, eq_ix1 j'⟩
    obtain ⟨h0, h1⟩ := (pairScatter_resultIdx wf idx j r c).mp hj'
    rw [hrow j] at h0
    have e : j = r := Fin.ext (by exact_mod_cast h0)
    rw [← e]; exact h1

end PairSet

/-! ## The pairs array -/

section Pairs
variable {α : Type} {M : Nat}

/-- A vector broadcast to a column reads, at `(j, 0)`, the vector at `j`. -/
theorem column_apply (h : (⟨1, ![M]⟩ : Shape).BroadcastsInDim ⟨2, ![M, 1]⟩ ![0]) (v : (⟨1, ![M]⟩ : Shape).Idx → α)
    (j : Fin M) : broadcastInDim ⟨2, ![M, 1]⟩ ![0] h v (ix2 j 0) = v (ix1 j) := by
  simp only [broadcastInDim]
  congr 1
  funext a
  obtain rfl : a = 0 := Subsingleton.elim _ _
  apply Fin.ext
  have hj := j.isLt
  split
  · next h1 => change M = 1 at h1; show (0 : Nat) = j.val; omega
  · rfl

/-- Two columns laid side by side read, at `(j, 0)`, the first column. -/
theorem pairs_col0 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 0) = a (ix2 j 0) :=
  concatenate_pair_apply_left (t := ⟨2, ![M, 2]⟩) (s₁ := ⟨2, ![M, 1]⟩) (s₂ := ⟨2, ![M, 1]⟩) (1 : Fin 2) a b h (ix2 j 0) rfl
      (ix2 j 0) fun d => by
    match d with
    | ⟨0, _⟩ => rfl
    | ⟨1, _⟩ => rfl

/-- … and, at `(j, 1)`, the second. -/
theorem pairs_col1 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 1) = b (ix2 j 0) :=
  concatenate_pair_apply_right (t := ⟨2, ![M, 2]⟩) (s₁ := ⟨2, ![M, 1]⟩) (s₂ := ⟨2, ![M, 1]⟩) (1 : Fin 2) a b h (ix2 j 1) rfl rfl
    (ix2 j 0) (fun d hd => by
      match d with
      | ⟨0, _⟩ => rfl
      | ⟨1, _⟩ => exact absurd rfl hd) (by rfl)

end Pairs

/-! ## A non-negative index is not wrapped -/

/-- `select (i < 0) (i + n) i` at a word that is non-negative read signed is that word. -/
theorem wrap_of_nonneg (i n : BitVec 32) (h : 0 ≤ i.toInt) :
    Scalar.select (IntOp.cmpi .slt i 0#32) (IntOp.addi i n) i = i := by
  have : IntOp.cmpi .slt i 0#32 = 0#1 := by
    simp only [IntOp.cmpi]
    have : ¬ i.slt 0#32 := by
      simp only [BitVec.slt, BitVec.toInt_zero, decide_eq_true_eq, not_lt]; exact h
    simp [this]
  rw [this]
  exact select_zero _ _

end Idealize.ShloMosaic.PairIndex

end
-- ==== Proof.RefValue.lean ====
/-
  The reference computes the interpolated field.

  Its result at (q, k) is sf[q, 0, k] · nv[n₀, 0] + sf[q, 1, k] · nv[n₁, 0], each table read by a gather: the
  connectivity row at the cell index, then the nodal value at that row's entry less one. Before each gather the index
  is normalised the way jnp normalises a negative index (n is added to an index below zero); under the index ranges
  no index is negative, so the normalisation is the identity, and the gathers' clamps are the ones of the
  specification.
-/
import proofs.«424653_j26010321944829_3_alg».proof.Proof.Gen.ReferenceIdeal.Read
import proofs.«424653_j26010321944829_3_alg».proof.Proof.Spec
import proofs.«424653_j26010321944829_3_alg».proof.Proof.LibGatherScatter
import proofs.«424653_j26010321944829_3_alg».proof.Proof.LibPairIndex

noncomputable section

namespace Cert.TwoNode.RefValue

open Cert.ReferenceIdeal Cert.ReferenceIdeal.Gen Cert.ReferenceIdeal.Read Cert.ReferenceIdeal.Facts₀
open Idealize.ShloMosaic Idealize.ShloMosaic.ValueIdx Idealize.ShloMosaic.GatherScatter Idealize.ShloMosaic.PairIndex
open Cert.TwoNode

variable {F : FTy → Type} [FloatOps F]
variable (a1 : (⟨S2000000, .i32⟩ : BufTy).Contents (Elt F)) (a2 : (⟨S1000001x1, .f32⟩ : BufTy).Contents (Elt F))
  (a3 : (⟨S2000000x2x16, .f32⟩ : BufTy).Contents (Elt F)) (a4 : (⟨S1000000x2, .i32⟩ : BufTy).Contents (Elt F))

/-- A cell index in range is not below zero: its normalisation is itself. -/
theorem cell_normalised (h : InRange a1 a4) (q : Fin 2000000) : val_main_v4 (F := F) a1 (ix1 q) = a1 (ix1 q) := by
  rw [val_main_v4_apply, val_main_v1_apply, val_main_v3_apply, val_main_v0_apply, val_main_c_apply]
  exact wrap_of_nonneg _ _ (h.cell_lo q)

/-- The gathered connectivity rows: at (q, j), entry j of the row of q's cell. -/
theorem rows_at (h : InRange a1 a4) (q : Fin 2000000) (j : Fin 2) :
    val_main_v6 (F := F) a1 a4 (ix2 q j) = a4 (ix2 (cellRow a1 q) j) := by
  unfold val_main_v6
  refine (rowGather_apply (N := 1000000) (C := 2) (M := 2000000) (by decide)
    Facts₀.gather_S1000000x2_S2000000x1_S2000000x2_1_0_n_n_0_1_12_wf a4 (val_main_v5 (F := F) a1) q j).trans ?_
  have e : val_main_v5 (F := F) a1 (ix2 q (0 : Fin 1)) = a1 (ix1 q) := by
    rw [val_main_v5_apply]
    have e' : idx_main_v5 (ix2 q (0 : Fin 1)) = ix1 q := by
      funext a; match a with | ⟨0, _⟩ => rfl
    rw [e', cell_normalised a1 a4 h]
  refine congrArg (fun r : Fin 1000000 => a4 (ix2 r j)) (Fin.ext ?_)
  show min (val_main_v5 (F := F) a1 (ix2 q (0 : Fin 1))).toInt.toNat (1000000 - 1) = min (a1 (ix1 q)).toInt.toNat (1000000 - 1)
  rw [e]

/-- The first end node's word: the row's entry 0 less one. -/
theorem node0_at (h : InRange a1 a4) (q : Fin 2000000) : val_main_v10 (F := F) a1 a4 (ix1 q) = nodeWord a1 a4 q 0 := by
  rw [val_main_v10_apply, val_main_v9_apply, val_main_v8_apply, val_main_v7_apply, val_main_c_1_apply]
  have e : idx_main_v9 (idx_main_v10 (ix1 q)) = ix2 q (0 : Fin 2) := by
    funext a; apply Fin.ext
    match a with
    | ⟨0, _⟩ => exact Nat.div_one _
    | ⟨1, _⟩ => rfl
  rw [e, rows_at a1 a4 h]
  rfl

/-- The second end node's word: the row's entry 1 less one. -/
theorem node1_at (h : InRange a1 a4) (q : Fin 2000000) : val_main_v23 (F := F) a1 a4 (ix1 q) = nodeWord a1 a4 q 1 := by
  rw [val_main_v23_apply, val_main_v22_apply, val_main_v8_apply, val_main_v7_apply, val_main_c_1_apply]
  have e : idx_main_v22 (idx_main_v23 (ix1 q)) = ix2 q (1 : Fin 2) := by
    funext a; apply Fin.ext
    match a with
    | ⟨0, _⟩ => exact Nat.div_one _
    | ⟨1, _⟩ => rfl
  rw [e, rows_at a1 a4 h]
  rfl

/-- A node word in range is not below zero: its normalisation is itself. -/
theorem node0_normalised (h : InRange a1 a4) (q : Fin 2000000) :
    val_main_v15 (F := F) a1 a4 (ix1 q) = nodeWord a1 a4 q 0 := by
  rw [val_main_v15_apply, val_main_v12_apply, val_main_v14_apply, val_main_v11_apply, val_main_c_2_apply, node0_at a1 a4 h]
  exact wrap_of_nonneg _ _ (h.nodeWord_lo q 0)

theorem node1_normalised (h : InRange a1 a4) (q : Fin 2000000) :
    val_main_v28 (F := F) a1 a4 (ix1 q) = nodeWord a1 a4 q 1 := by
  rw [val_main_v28_apply, val_main_v25_apply, val_main_v27_apply, val_main_v24_apply, val_main_c_5_apply, node1_at a1 a4 h]
  exact wrap_of_nonneg _ _ (h.nodeWord_lo q 1)

/-- The first gathered nodal value: the table at the first end node's row (its one column). -/
theorem nodal0_at (h : InRange a1 a4) (q : Fin 2000000) :
    val_main_v21 (F := F) a1 a2 a4 (ix1 q) = a2 (ix2 (nodeRow a1 a4 q 0) (0 : Fin 1)) := by
  unfold val_main_v21
  refine (pairGather_apply (N := 1000001) (N' := 1) (M := 2000000) (by decide) (by decide)
    Facts₀.gather_S1000001x1_S2000000x2_S2000000_n_01_n_n_01_1_11_wf a2 (val_main_v20 (F := F) a1 a4) q).trans ?_
  have e0 : val_main_v20 (F := F) a1 a4 (ix2 q (0 : Fin 2)) = nodeWord a1 a4 q 0 := by
    unfold val_main_v20
    rw [pairs_col0, val_main_v18_apply]
    have e' : idx_main_v18 (ix2 q (0 : Fin 1)) = ix1 q := by
      funext a; match a with | ⟨0, _⟩ => rfl
    rw [e', node0_normalised a1 a4 h]
  refine congrArg a2 ?_
  funext a; apply Fin.ext
  match a with
  | ⟨0, _⟩ =>
    show min (val_main_v20 (F := F) a1 a4 (ix2 q (0 : Fin 2))).toInt.toNat (1000001 - 1)
      = min (nodeWord a1 a4 q 0).toInt.toNat (1000001 - 1)
    rw [e0]
  | ⟨1, _⟩ =>
    show min (val_main_v20 (F := F) a1 a4 (ix2 q (1 : Fin 2))).toInt.toNat (1 - 1) = 0
    omega

/-- The second gathered nodal value: the table at the second end node's row. -/
theorem nodal1_at (h : InRange a1 a4) (q : Fin 2000000) :
    val_main_v34 (F := F) a1 a2 a4 (ix1 q) = a2 (ix2 (nodeRow a1 a4 q 1) (0 : Fin 1)) := by
  unfold val_main_v34
  refine (pairGather_apply (N := 1000001) (N' := 1) (M := 2000000) (by decide) (by decide)
    Facts₀.gather_S1000001x1_S2000000x2_S2000000_n_01_n_n_01_1_11_wf a2 (val_main_v33 (F := F) a1 a4) q).trans ?_
  have e0 : val_main_v33 (F := F) a1 a4 (ix2 q (0 : Fin 2)) = nodeWord a1 a4 q 1 := by
    unfold val_main_v33
    rw [pairs_col0, val_main_v31_apply]
    have e' : idx_main_v31 (ix2 q (0 : Fin 1)) = ix1 q := by
      funext a; match a with | ⟨0, _⟩ => rfl
    rw [e', node1_normalised a1 a4 h]
  refine congrArg a2 ?_
  funext a; apply Fin.ext
  match a with
  | ⟨0, _⟩ =>
    show min (val_main_v33 (F := F) a1 a4 (ix2 q (0 : Fin 2))).toInt.toNat (1000001 - 1)
      = min (nodeWord a1 a4 q 1).toInt.toNat (1000001 - 1)
    rw [e0]
  | ⟨1, _⟩ =>
    show min (val_main_v33 (F := F) a1 a4 (ix2 q (1 : Fin 2))).toInt.toNat (1 - 1) = 0
    omega

/-- The first shape function's slice, flattened: at (q, k) the array at (q, 0, k). -/
theorem sf0_at (q : Fin 2000000) (k : Fin 16) : val_main_v36 (F := F) a3 (ix2 q k) = a3 (ix3 q (0 : Fin 2) k) := by
  rw [val_main_v36_apply, val_main_v35_apply]
  refine congrArg a3 ?_
  funext a; apply Fin.ext
  have hk := k.isLt
  match a with
  | ⟨0, _⟩ => show (q.val * 16 + k.val) / 16 = q.val; omega
  | ⟨1, _⟩ => rfl
  | ⟨2, _⟩ => show (q.val * 16 + k.val) % 16 = k.val; omega

/-- The second shape function's slice, flattened: at (q, k) the array at (q, 1, k). -/
theorem sf1_at (q : Fin 2000000) (k : Fin 16) : val_main_v41 (F := F) a3 (ix2 q k) = a3 (ix3 q (1 : Fin 2) k) := by
  rw [val_main_v41_apply, val_main_v40_apply]
  refine congrArg a3 ?_
  funext a; apply Fin.ext
  have hk := k.isLt
  match a with
  | ⟨0, _⟩ => show (q.val * 16 + k.val) / 16 = q.val; omega
  | ⟨1, _⟩ => rfl
  | ⟨2, _⟩ => show (q.val * 16 + k.val) % 16 = k.val; omega

/-- A per-point value laid along the 16 columns reads, at (q, k), the value at q. -/
theorem along0_at (q : Fin 2000000) (k : Fin 16) :
    val_main_v38 (F := F) a1 a2 a4 (ix2 q k) = val_main_v21 (F := F) a1 a2 a4 (ix1 q) := by
  rw [val_main_v38_apply, val_main_v37_apply]
  refine congrArg _ ?_
  funext a; match a with | ⟨0, _⟩ => rfl

theorem along1_at (q : Fin 2000000) (k : Fin 16) :
    val_main_v43 (F := F) a1 a2 a4 (ix2 q k) = val_main_v34 (F := F) a1 a2 a4 (ix1 q) := by
  rw [val_main_v43_apply, val_main_v42_apply]
  refine congrArg _ ?_
  funext a; match a with | ⟨0, _⟩ => rfl

/-- THE REFERENCE IS THE INTERPOLATED FIELD, under the index ranges. -/
theorem result_eq (h : InRange a1 a4) : val_main_v45 (F := F) a1 a2 a3 a4 = interp a1 a2 a3 a4 := by
  funext i
  obtain ⟨q, k, rfl⟩ : ∃ (q : Fin 2000000) (k : Fin 16), i = ix2 q k := ⟨i 0, i 1, eq_ix2 i⟩
  rw [val_main_v45_apply, val_main_v39_apply, val_main_v44_apply, sf0_at, sf1_at, along0_at, along1_at,
    nodal0_at a1 a2 a4 h, nodal1_at a1 a2 a4 h]
  rfl

end Cert.TwoNode.RefValue

end
-- ==== Proof.LibReduceAnd.lean ====
/-
  A REDUCTION BY `and` OF ONES IS ONE.

  A one-operand `stablehlo.reduce` of a one-bit array by `and`, from an initial value that is 1, is 1 at every result
  index all of whose contributing operand elements are 1 — the converse of the library's reading of `jnp.all`
  (Lib/ReduceAll.lean), which goes from the result to the elements.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  refine IntOp.foldl_andi_of_all x _ fun i hi => ?_
  rw [List.mem_filter] at hi
  exact hx i (by simpa using hi.2)

end Host

end Idealize.ShloMosaic
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.KernelGlue.lean ====
/-
  What the kernel's region finds in its two input arrays.

  Before the region the program flattens the shape functions [2000000, 2, 16] to [2000000, 32] and builds the
  [2000000, 2] array of the two end nodes' values per query point with jnp.take in its filling mode: an index is
  normalised (n added if negative), tested against the table's range, gathered with the start index clamped, and the
  gathered value is kept where the test holds and replaced by a filler (the least integer for the node table, a
  NaN for the nodal values) elsewhere. Under the index ranges every test holds, so no filler is ever read and the
  gathers' clamps are the ones of the specification: column j of the nodes array at q is the nodal value at end node j
  of q's cell.
-/
import proofs.«424653_j26010321944829_3_alg».proof.Proof.Gen.KernelIdeal.Frame
import proofs.«424653_j26010321944829_3_alg».proof.Proof.Spec
import proofs.«424653_j26010321944829_3_alg».proof.Proof.LibGatherScatter
import proofs.«424653_j26010321944829_3_alg».proof.Proof.LibPairIndex
import proofs.«424653_j26010321944829_3_alg».proof.Proof.LibReduceAnd
import proofs.«424653_j26010321944829_3_alg».proof.Proof.LibTRefCast
import Idealize.ShloMosaic.Lib.StableHlo.Run
import Idealize.ShloMosaic.Lib.Pipeline.Value
import Idealize.ShloMosaic.Lib.Affine

noncomputable section

namespace Cert.TwoNode.Glue

open Cert.KernelIdeal Idealize.ShloMosaic Idealize.ShloMosaic.TcCoe Idealize.SL.Sem
open Idealize.ShloMosaic.ValueIdx Idealize.ShloMosaic.GatherScatter Idealize.ShloMosaic.PairIndex
open Cert.TwoNode

variable {F : FTy → Type} [FloatOps F]

/-! ## jnp.take in its filling mode, as pure functions -/

/-- jnp's normalisation of a possibly negative index into an axis of extent n: n is added to an index below zero. -/
def wrapIdx (n : BitVec 32) (idx : IVec S2000000 32) : IVec S2000000 32 :=
  select (cmpi .slt idx (broadcastInDim S2000000 ![] Facts₀.bcast_S_S2000000 (constantI S_ 32 0#32)))
    (addi idx (broadcastInDim S2000000 ![] Facts₀.bcast_S_S2000000 (constantI S_ 32 n))) idx

/-- The range test on a column of start indices: 0 ≤ index ≤ hi, per row. -/
def inBounds (hi : BitVec 32) (col : IVec S2000000x1 32) : IVec S2000000 1 :=
  Host.reduce IntOp.andi
    (andi (cmpi .sge col (broadcastInDim S2000000x1 ![] Facts₀.bcast_S_S2000000x1 (constantI S_ 32 0#32)))
      (cmpi .sle col (broadcastInDim S2000000x1 ![0, 1] Facts₀.bcast_S1x1_S2000000x1_0_1
        (broadcastInDim S1x1 ![1] Facts₀.bcast_S1_S1x1_1 (constantI S1 32 hi)))))
    (constantI S_ 1 1#1) Facts₀.reducesTo_S2000000x1_S2000000_d1 Facts₀.h_S_

/-- Rows of the connectivity table taken at the cell indices, the least integer where an index is out of range. -/
def takeRowsFill (conn : IVec S1000000x2 32) (cell : IVec S2000000 32) : IVec S2000000x2 32 :=
  select
    (broadcastInDim S2000000x2 ![0] Facts₀.bcast_S2000000_S2000000x2_0
      (inBounds 999999#32 (broadcastInDim S2000000x1 ![0] Facts₀.bcast_S2000000_S2000000x1_0 (wrapIdx 1000000#32 cell))))
    (Host.gather gather_S1000000x2_S2000000x1_S2000000x2_1_0_n_n_0_1_12 conn
      (broadcastInDim S2000000x1 ![0] Facts₀.bcast_S2000000_S2000000x1_0 (wrapIdx 1000000#32 cell)))
    (broadcastInDim S2000000x2 ![] Facts₀.bcast_S_S2000000x2 (constantI S_ 32 2147483648#32))

/-- Entries of a vector of 1000001 values taken at the given indices, a NaN where an index is out of range. -/
def takeVecFill (x : FVec F S1000001 .f32) (idx : IVec S2000000 32) : FVec F S2000000 .f32 :=
  select
    (inBounds 1000000#32 (broadcastInDim S2000000x1 ![0] Facts₀.bcast_S2000000_S2000000x1_0 (wrapIdx 1000001#32 idx)))
    (Host.gather gather_S1000001_S2000000x1_S2000000_n_0_n_n_0_1_1 x
      (broadcastInDim S2000000x1 ![0] Facts₀.bcast_S2000000_S2000000x1_0 (wrapIdx 1000001#32 idx)))
    (broadcastInDim S2000000 ![] Facts₀.bcast_S_S2000000 (constant S_ .f32 0x7FC00000#32))

/-- The nodal values [1000001, 1] as a vector. -/
def flatNv (nv : FVec F S1000001x1 .f32) : FVec F S1000001 .f32 :=
  shapeCast S1000001 nv Facts₀.shapeCasts_S1000001x1_S1000001

/-- Every entry less one: node numbers counted from zero. -/
def lessOne (rows : IVec S2000000x2 32) : IVec S2000000x2 32 :=
  subi rows (broadcastInDim S2000000x2 ![] Facts₀.bcast_S_S2000000x2 (constantI S_ 32 1#32))

/-- Column 0 of a two-column array, as a vector. -/
def col0 (x : IVec S2000000x2 32) : IVec S2000000 32 :=
  shapeCast S2000000 (extractStridedSlice S2000000x1 ![0, 0] x Facts₀.slices_S2000000x2_S2000000x1_0_0)
    Facts₀.shapeCasts_S2000000x1_S2000000

/-- Column 1 of a two-column array, as a vector. -/
def col1 (x : IVec S2000000x2 32) : IVec S2000000 32 :=
  shapeCast S2000000 (extractStridedSlice S2000000x1 ![0, 1] x Facts₀.slices_S2000000x2_S2000000x1_0_1)
    Facts₀.shapeCasts_S2000000x1_S2000000

/-- The taken rows less one: the end nodes counted from zero. -/
def nodesFrom0 (conn : IVec S1000000x2 32) (cell : IVec S2000000 32) : IVec S2000000x2 32 :=
  lessOne (takeRowsFill conn cell)

/-- Column 0 of those, as a vector of indices. -/
def nodeIdx0 (conn : IVec S1000000x2 32) (cell : IVec S2000000 32) : IVec S2000000 32 := col0 (nodesFrom0 conn cell)

/-- Column 1 of those. -/
def nodeIdx1 (conn : IVec S1000000x2 32) (cell : IVec S2000000 32) : IVec S2000000 32 := col1 (nodesFrom0 conn cell)

/-! ## Read at an index, under the ranges -/

/-- A vector laid as a column reads, at any index of the column, the vector at that row. -/
theorem col_at (v : IVec S2000000 32) (q : Fin 2000000) (u : Fin 1) :
    broadcastInDim S2000000x1 ![0] Facts₀.bcast_S2000000_S2000000x1_0 v (ix2 q u) = v (ix1 q) := by
  obtain rfl : u = 0 := Subsingleton.elim _ _
  exact column_apply _ v q

/-- An index that is not below zero is its own normalisation. -/
theorem wrapIdx_at (n : BitVec 32) (idx : IVec S2000000 32) (q : Fin 2000000) (h : 0 ≤ (idx (ix1 q)).toInt) :
    wrapIdx n idx (ix1 q) = idx (ix1 q) := by
  unfold wrapIdx
  show Scalar.select (IntOp.cmpi .slt (idx (ix1 q)) (broadcastInDim S2000000 ![] Facts₀.bcast_S_S2000000 (constantI S_ 32 0#32) (ix1 q)))
    (IntOp.addi (idx (ix1 q)) (broadcastInDim S2000000 ![] Facts₀.bcast_S_S2000000 (constantI S_ 32 n) (ix1 q))) (idx (ix1 q)) = _
  rw [bcast_const, bcast_const]
  exact wrap_of_nonneg _ _ h

/-- The range test holds at every row whose index is within [0, hi]. -/
theorem inBounds_one (hi : BitVec 32) (col : IVec S2000000x1 32)
    (h : ∀ (q : Fin 2000000) (u : Fin 1), 0 ≤ (col (ix2 q u)).toInt ∧ (col (ix2 q u)).toInt ≤ hi.toInt) (j : S2000000.Idx) :
    inBounds hi col j = 1#1 := by
  unfold inBounds
  refine Host.reduce_andi_of_all _ _ _ _ j rfl (fun i _ => ?_)
  obtain ⟨q, u, rfl⟩ : ∃ (q : Fin 2000000) (u : Fin 1), i = ix2 q u := ⟨i 0, i 1, eq_ix2 i⟩
  show IntOp.andi (IntOp.cmpi .sge (col (ix2 q u)) (broadcastInDim S2000000x1 ![] Facts₀.bcast_S_S2000000x1 (constantI S_ 32 0#32) (ix2 q u)))
    (IntOp.cmpi .sle (col (ix2 q u)) (broadcastInDim S2000000x1 ![0, 1] Facts₀.bcast_S1x1_S2000000x1_0_1
        (broadcastInDim S1x1 ![1] Facts₀.bcast_S1_S1x1_1 (constantI S1 32 hi)) (ix2 q u))) = 1#1
  have e1 : broadcastInDim S2000000x1 ![0, 1] Facts₀.bcast_S1x1_S2000000x1_0_1
      (broadcastInDim S1x1 ![1] Facts₀.bcast_S1_S1x1_1 (constantI S1 32 hi)) (ix2 q u) = hi := rfl
  have z0 : (0#32 : BitVec 32).toInt = 0 := by decide
  rw [bcast_const, e1, IntOp.andi_eq_one, cmpi_sge_iff, cmpi_sle_iff, z0]
  exact h q u

/-- The taken rows: at (q, j), entry j of the row of q's cell. -/
theorem takeRowsFill_at (conn : IVec S1000000x2 32) (cell : IVec S2000000 32)
    (hlo : ∀ q : Fin 2000000, 0 ≤ (cell (ix1 q)).toInt) (hhi : ∀ q : Fin 2000000, (cell (ix1 q)).toInt < 1000000)
    (q : Fin 2000000) (j : Fin 2) :
    takeRowsFill conn cell (ix2 q j) = conn (ix2 (cellRow cell q) j) := by
  have z : (999999#32 : BitVec 32).toInt = 999999 := by decide
  have hm : inBounds 999999#32 (broadcastInDim S2000000x1 ![0] Facts₀.bcast_S2000000_S2000000x1_0 (wrapIdx 1000000#32 cell))
      = fun _ => 1#1 :=
    funext (inBounds_one _ _ fun q' u => by
      rw [col_at, wrapIdx_at _ _ _ (hlo _), z]
      have := hhi q'
      exact ⟨hlo _, by omega⟩)
  unfold takeRowsFill
  rw [hm]
  show Scalar.select 1#1 (Host.gather gather_S1000000x2_S2000000x1_S2000000x2_1_0_n_n_0_1_12 conn
      (broadcastInDim S2000000x1 ![0] Facts₀.bcast_S2000000_S2000000x1_0 (wrapIdx 1000000#32 cell)) (ix2 q j)) _ = _
  rw [select_one]
  refine (rowGather_apply (N := 1000000) (C := 2) (M := 2000000) (by decide)
    Facts₀.gather_S1000000x2_S2000000x1_S2000000x2_1_0_n_n_0_1_12_wf conn _ q j).trans ?_
  refine congrArg (fun r : Fin 1000000 => conn (ix2 r j)) (Fin.ext ?_)
  show min (broadcastInDim S2000000x1 ![0] Facts₀.bcast_S2000000_S2000000x1_0 (wrapIdx 1000000#32 cell) (ix2 q (0 : Fin 1))).toInt.toNat
      (1000000 - 1) = min (cell (ix1 q)).toInt.toNat (1000000 - 1)
  rw [col_at, wrapIdx_at _ _ _ (hlo _)]

/-- The taken values: at q, the vector at the index, when every index is within [0, 1000000]. -/
theorem takeVecFill_at (x : FVec F S1000001 .f32) (idx : IVec S2000000 32)
    (hlo : ∀ q : Fin 2000000, 0 ≤ (idx (ix1 q)).toInt) (hhi : ∀ q : Fin 2000000, (idx (ix1 q)).toInt ≤ 1000000)
    (q : Fin 2000000) :
    takeVecFill x idx (ix1 q) = x (ix1 ⟨min (idx (ix1 q)).toInt.toNat (1000001 - 1), by omega⟩) := by
  have z : (1000000#32 : BitVec 32).toInt = 1000000 := by decide
  have hm : inBounds 1000000#32 (broadcastInDim S2000000x1 ![0] Facts₀.bcast_S2000000_S2000000x1_0 (wrapIdx 1000001#32 idx))
      (ix1 q) = 1#1 :=
    inBounds_one _ _ (fun q' u => by
      rw [col_at, wrapIdx_at _ _ _ (hlo _), z]
      exact ⟨hlo _, hhi _⟩) _
  unfold takeVecFill
  show Scalar.select (inBounds 1000000#32 (broadcastInDim S2000000x1 ![0] Facts₀.bcast_S2000000_S2000000x1_0 (wrapIdx 1000001#32 idx)) (ix1 q))
    (Host.gather gather_S1000001_S2000000x1_S2000000_n_0_n_n_0_1_1 x
      (broadcastInDim S2000000x1 ![0] Facts₀.bcast_S2000000_S2000000x1_0 (wrapIdx 1000001#32 idx)) (ix1 q)) _ = _
  rw [hm, select_one]
  refine (vecGather_apply (N := 1000001) (M := 2000000) (by decide)
    Facts₀.gather_S1000001_S2000000x1_S2000000_n_0_n_n_0_1_1_wf x _ q).trans ?_
  refine congrArg (fun r : Fin 1000001 => x (ix1 r)) (Fin.ext ?_)
  show min (broadcastInDim S2000000x1 ![0] Facts₀.bcast_S2000000_S2000000x1_0 (wrapIdx 1000001#32 idx) (ix2 q (0 : Fin 1))).toInt.toNat
      (1000001 - 1) = min (idx (ix1 q)).toInt.toNat (1000001 - 1)
  rw [col_at, wrapIdx_at _ _ _ (hlo _)]

/-- The nodal values as a vector read, at r, the table at (r, 0). -/
theorem flatNv_at (nv : FVec F S1000001x1 .f32) (r : Fin 1000001) : flatNv nv (ix1 r) = nv (ix2 r (0 : Fin 1)) := by
  unfold flatNv
  refine shapeCast_apply nv Facts₀.shapeCasts_S1000001x1_S1000001 (ix1 r) (ix2 r (0 : Fin 1)) ?_
  rw [Shape.rowMajor_val_two, Shape.rowMajor_val_one]
  show r.val * 1 + 0 = r.val
  omega

variable {conn : IVec S1000000x2 32} {cell : IVec S2000000 32}

/-- The end nodes counted from zero are the specification's node words. -/
theorem nodesFrom0_at (h : InRange cell conn) (q : Fin 2000000) (j : Fin 2) :
    nodesFrom0 conn cell (ix2 q j) = nodeWord cell conn q j := by
  unfold nodesFrom0 lessOne
  show IntOp.subi (takeRowsFill conn cell (ix2 q j))
    (broadcastInDim S2000000x2 ![] Facts₀.bcast_S_S2000000x2 (constantI S_ 32 1#32) (ix2 q j)) = _
  rw [bcast_const, takeRowsFill_at conn cell h.cell_lo h.cell_hi]
  rfl

theorem nodeIdx0_at (h : InRange cell conn) (q : Fin 2000000) : nodeIdx0 conn cell (ix1 q) = nodeWord cell conn q 0 := by
  unfold nodeIdx0 col0
  refine (shapeCast_apply _ Facts₀.shapeCasts_S2000000x1_S2000000 (ix1 q) (ix2 q (0 : Fin 1)) (by
    rw [Shape.rowMajor_val_two, Shape.rowMajor_val_one]; show q.val * 1 + 0 = q.val; omega)).trans ?_
  refine (extractStridedSlice_apply ![0, 0] _ Facts₀.slices_S2000000x2_S2000000x1_0_0 (ix2 q (0 : Fin 1)) (ix2 q (0 : Fin 2))
    (fun a => match a with
      | ⟨0, _⟩ => by show q.val = 0 + q.val; omega
      | ⟨1, _⟩ => rfl)).trans ?_
  exact nodesFrom0_at h q 0

theorem nodeIdx1_at (h : InRange cell conn) (q : Fin 2000000) : nodeIdx1 conn cell (ix1 q) = nodeWord cell conn q 1 := by
  unfold nodeIdx1 col1
  refine (shapeCast_apply _ Facts₀.shapeCasts_S2000000x1_S2000000 (ix1 q) (ix2 q (0 : Fin 1)) (by
    rw [Shape.rowMajor_val_two, Shape.rowMajor_val_one]; show q.val * 1 + 0 = q.val; omega)).trans ?_
  refine (extractStridedSlice_apply ![0, 1] _ Facts₀.slices_S2000000x2_S2000000x1_0_1 (ix2 q (0 : Fin 1)) (ix2 q (1 : Fin 2))
    (fun a => match a with
      | ⟨0, _⟩ => by show q.val = 0 + q.val; omega
      | ⟨1, _⟩ => rfl)).trans ?_
  exact nodesFrom0_at h q 1

/-! ## The arrays at region entry, one stretch of host operations at a time

The region finds each buffer as the program's host operations left it. They come in five stretches — the row take, the
slicing of its two columns, the two value takes, the laying side by side —, and each stretch is read over ANY contents
`G` before it: the one or two buffers it computes, as the pure functions above of the buffers it reads, and the buffers
it leaves alone. -/

open Cert.KernelIdeal.Gen

/-- At a literal reference the buffer's type IS the value's: storing and reading change nothing. -/
theorem toBuf_v0 (h1 h2 h3) (w : (⟨S2000000x2, .i32⟩ : BufTy).Contents (Elt F)) :
    (StableHlo.TRef.of (T := ⟨S2000000x2, .i32⟩) main_v0 h1 h2 h3).toBuf w = w := rfl
theorem toBuf_v8 (h1 h2 h3) (w : (⟨S2000000, .f32⟩ : BufTy).Contents (Elt F)) :
    (StableHlo.TRef.of (T := ⟨S2000000, .f32⟩) main_v8 h1 h2 h3).toBuf w = w := rfl
theorem toBuf_v9 (h1 h2 h3) (w : (⟨S2000000, .f32⟩ : BufTy).Contents (Elt F)) :
    (StableHlo.TRef.of (T := ⟨S2000000, .f32⟩) main_v9 h1 h2 h3).toBuf w = w := rfl
theorem ofBuf_arg1 (h1 h2 h3) (w : (main_arg1 : Ref sig .tc).ty.Contents (Elt F)) :
    (StableHlo.TRef.of (T := ⟨S2000000, .i32⟩) main_arg1 h1 h2 h3).ofBuf w = w := rfl
theorem ofBuf_arg4 (h1 h2 h3) (w : (main_arg4 : Ref sig .tc).ty.Contents (Elt F)) :
    (StableHlo.TRef.of (T := ⟨S1000000x2, .i32⟩) main_arg4 h1 h2 h3).ofBuf w = w := rfl
theorem ofBuf_v4 (h1 h2 h3) (w : (main_v4 : Ref sig .tc).ty.Contents (Elt F)) :
    (StableHlo.TRef.of (T := ⟨S2000000, .i32⟩) main_v4 h1 h2 h3).ofBuf w = w := rfl
theorem ofBuf_v6 (h1 h2 h3) (w : (main_v6 : Ref sig .tc).ty.Contents (Elt F)) :
    (StableHlo.TRef.of (T := ⟨S2000000, .i32⟩) main_v6 h1 h2 h3).ofBuf w = w := rfl
theorem ofBuf_v7 (h1 h2 h3) (w : (main_v7 : Ref sig .tc).ty.Contents (Elt F)) :
    (StableHlo.TRef.of (T := ⟨S1000001, .f32⟩) main_v7 h1 h2 h3).ofBuf w = w := rfl

section Stretches

variable (G : Valuation τ sig (Elt F))

/-- The row take leaves the rows of the connectivity table at the cell indices. -/
theorem rows_stretch :
    (StableHlo.after hostOps0 G (Proc.devRef .tc main_v0) : S2000000x2.Idx → BitVec 32)
      = takeRowsFill (G (Proc.devRef .tc main_arg4) : S1000000x2.Idx → BitVec 32)
          (G (Proc.devRef .tc main_arg1) : S2000000.Idx → BitVec 32) := by
  simp only [hostOps0]
  after_results_simp
  simp only [StableHlo.TRef.ofBuf_toBuf, toBuf_v0, ofBuf_arg1, ofBuf_arg4]
  rfl

theorem rows_stretch_keeps_arg2 :
    StableHlo.after hostOps0 G (Proc.devRef .tc main_arg2) = G (Proc.devRef .tc main_arg2) := by
  simp only [hostOps0]
  after_results_simp

theorem rows_stretch_keeps_arg3 :
    StableHlo.after hostOps0 G (Proc.devRef .tc main_arg3) = G (Proc.devRef .tc main_arg3) := by
  simp only [hostOps0]
  after_results_simp

/-- The slicing leaves the two columns of the rows less one, and the nodal values as a vector. -/
theorem cols_stretch_v4 :
    (StableHlo.after hostOps0_1 G (Proc.devRef .tc main_v4) : S2000000.Idx → BitVec 32)
      = col0 (lessOne (G (Proc.devRef .tc main_v0) : S2000000x2.Idx → BitVec 32)) := by
  simp only [hostOps0_1]
  after_results_simp
  rfl

theorem cols_stretch_v6 :
    (StableHlo.after hostOps0_1 G (Proc.devRef .tc main_v6) : S2000000.Idx → BitVec 32)
      = col1 (lessOne (G (Proc.devRef .tc main_v0) : S2000000x2.Idx → BitVec 32)) := by
  simp only [hostOps0_1]
  after_results_simp
  rfl

theorem cols_stretch_v7 :
    (StableHlo.after hostOps0_1 G (Proc.devRef .tc main_v7) : S1000001.Idx → F .f32)
      = flatNv (G (Proc.devRef .tc main_arg2) : S1000001x1.Idx → F .f32) := by
  simp only [hostOps0_1]
  after_results_simp
  rfl

theorem cols_stretch_keeps_arg3 :
    StableHlo.after hostOps0_1 G (Proc.devRef .tc main_arg3) = G (Proc.devRef .tc main_arg3) := by
  simp only [hostOps0_1]
  after_results_simp

/-- The first value take. -/
theorem take0_stretch :
    (StableHlo.after hostOps0_2 G (Proc.devRef .tc main_v8) : S2000000.Idx → F .f32)
      = takeVecFill (G (Proc.devRef .tc main_v7) : S1000001.Idx → F .f32)
          (G (Proc.devRef .tc main_v4) : S2000000.Idx → BitVec 32) := by
  simp only [hostOps0_2]
  after_results_simp
  simp only [StableHlo.TRef.ofBuf_toBuf, toBuf_v8, ofBuf_v7, ofBuf_v4]
  rfl

theorem take0_stretch_keeps_v6 :
    StableHlo.after hostOps0_2 G (Proc.devRef .tc main_v6) = G (Proc.devRef .tc main_v6) := by
  simp only [hostOps0_2]
  after_results_simp

theorem take0_stretch_keeps_v7 :
    StableHlo.after hostOps0_2 G (Proc.devRef .tc main_v7) = G (Proc.devRef .tc main_v7) := by
  simp only [hostOps0_2]
  after_results_simp

theorem take0_stretch_keeps_arg3 :
    StableHlo.after hostOps0_2 G (Proc.devRef .tc main_arg3) = G (Proc.devRef .tc main_arg3) := by
  simp only [hostOps0_2]
  after_results_simp

/-- The second value take. -/
theorem take1_stretch :
    (StableHlo.after hostOps0_3 G (Proc.devRef .tc main_v9) : S2000000.Idx → F .f32)
      = takeVecFill (G (Proc.devRef .tc main_v7) : S1000001.Idx → F .f32)
          (G (Proc.devRef .tc main_v6) : S2000000.Idx → BitVec 32) := by
  simp only [hostOps0_3]
  after_results_simp
  simp only [StableHlo.TRef.ofBuf_toBuf, toBuf_v9, ofBuf_v7, ofBuf_v6]
  rfl

theorem take1_stretch_keeps_v8 :
    StableHlo.after hostOps0_3 G (Proc.devRef .tc main_v8) = G (Proc.devRef .tc main_v8) := by
  simp only [hostOps0_3]
  after_results_simp

theorem take1_stretch_keeps_arg3 :
    StableHlo.after hostOps0_3 G (Proc.devRef .tc main_arg3) = G (Proc.devRef .tc main_arg3) := by
  simp only [hostOps0_3]
  after_results_simp

/-- The last stretch lays the two taken vectors side by side: column 0 of the nodes array … -/
theorem pair_stretch_col0 (q : Fin 2000000) :
    (StableHlo.after hostOps0_4 G (Proc.devRef .tc main_v12) : S2000000x2.Idx → F .f32) (ix2 q (0 : Fin 2))
      = (G (Proc.devRef .tc main_v8) : S2000000.Idx → F .f32) (ix1 q) := by
  simp only [hostOps0_4]
  after_results
  rw [pairs_col0]
  exact column_apply _ _ q

/-- … and column 1; -/
theorem pair_stretch_col1 (q : Fin 2000000) :
    (StableHlo.after hostOps0_4 G (Proc.devRef .tc main_v12) : S2000000x2.Idx → F .f32) (ix2 q (1 : Fin 2))
      = (G (Proc.devRef .tc main_v9) : S2000000.Idx → F .f32) (ix1 q) := by
  simp only [hostOps0_4]
  after_results
  rw [pairs_col1]
  exact column_apply _ _ q

/-- and flattens the shape functions. -/
theorem pair_stretch_v13 :
    (StableHlo.after hostOps0_4 G (Proc.devRef .tc main_v13) : S2000000x32.Idx → F .f32)
      = shapeCast S2000000x32 (G (Proc.devRef .tc main_arg3) : S2000000x2x16.Idx → F .f32)
          Facts₀.shapeCasts_S2000000x2x16_S2000000x32 := by
  simp only [hostOps0_4]
  after_results_simp
  rfl

end Stretches

variable (m : (ℓ : Loc nD τ sig) → Buf (Elt F) ℓ)

/-- The region-entry contents are the five stretches applied in turn to the launch contents. -/
theorem V_stages (c : Dev nD) (b : Ref sig .tc) :
    V m c b = StableHlo.after hostOps0_4 (StableHlo.after hostOps0_3 (StableHlo.after hostOps0_2
      (StableHlo.after hostOps0_1 (StableHlo.after hostOps0 (fun b => m (c, b)))))) (Proc.devRef .tc b) := by
  dsimp only [V]
  rw [show List.flatten [(hostOps0 : List (HloOp τ sig (Elt F))), hostOps0_1, hostOps0_2, hostOps0_3, hostOps0_4]
      = hostOps0 ++ (hostOps0_1 ++ (hostOps0_2 ++ (hostOps0_3 ++ hostOps0_4))) from by
    simp only [List.flatten_cons, List.flatten_nil, List.append_nil]]
  rw [StableHlo.after_append, StableHlo.after_append, StableHlo.after_append, StableHlo.after_append]

/-! ## The two arrays at an index -/

/-- The flattened shape functions: at (q, 16·s + k) the array at (q, s, k). -/
theorem sf_at (c : Dev nD) (q : Fin 2000000) (j : Fin 32) (s : Fin 2) (k : Fin 16) (hj : j.val = 16 * s.val + k.val) :
    (V m c main_v13 : S2000000x32.Idx → F .f32) (ix2 q j)
      = (m ((c : Thread nD τ).loc main_arg3) : S2000000x2x16.Idx → F .f32) (ix3 q s k) := by
  rw [V_stages, pair_stretch_v13, take1_stretch_keeps_arg3, take0_stretch_keeps_arg3, cols_stretch_keeps_arg3,
    rows_stretch_keeps_arg3]
  refine shapeCast_apply _ Facts₀.shapeCasts_S2000000x2x16_S2000000x32 _ (ix3 q s k) ?_
  rw [Shape.rowMajor_val_three, Shape.rowMajor_val_two]
  show (q.val * 2 + s.val) * 16 + k.val = q.val * 32 + j.val
  omega

/-- Column 0 of the nodes array is the first take, column 1 the second, of the launch contents. -/
theorem nodes0_eq (c : Dev nD) (q : Fin 2000000) :
    (V m c main_v12 : S2000000x2.Idx → F .f32) (ix2 q (0 : Fin 2))
      = takeVecFill (flatNv (m ((c : Thread nD τ).loc main_arg2) : S1000001x1.Idx → F .f32))
          (nodeIdx0 (m ((c : Thread nD τ).loc main_arg4)) (m ((c : Thread nD τ).loc main_arg1))) (ix1 q) := by
  rw [V_stages, pair_stretch_col0, take1_stretch_keeps_v8, take0_stretch, cols_stretch_v7, cols_stretch_v4,
    rows_stretch_keeps_arg2, rows_stretch]
  rfl

theorem nodes1_eq (c : Dev nD) (q : Fin 2000000) :
    (V m c main_v12 : S2000000x2.Idx → F .f32) (ix2 q (1 : Fin 2))
      = takeVecFill (flatNv (m ((c : Thread nD τ).loc main_arg2) : S1000001x1.Idx → F .f32))
          (nodeIdx1 (m ((c : Thread nD τ).loc main_arg4)) (m ((c : Thread nD τ).loc main_arg1))) (ix1 q) := by
  rw [V_stages, pair_stretch_col1, take1_stretch, take0_stretch_keeps_v7, take0_stretch_keeps_v6, cols_stretch_v7,
    cols_stretch_v6, rows_stretch_keeps_arg2, rows_stretch]
  rfl

/-- The nodes array: at (q, j) the nodal value at end node j of q's cell, under the index ranges. -/
theorem nodes_at (c : Dev nD)
    (h : InRange (m ((c : Thread nD τ).loc main_arg1)) (m ((c : Thread nD τ).loc main_arg4))) (q : Fin 2000000) (j : Fin 2) :
    (V m c main_v12 : S2000000x2.Idx → F .f32) (ix2 q j)
      = (m ((c : Thread nD τ).loc main_arg2) : S1000001x1.Idx → F .f32)
          (ix2 (nodeRow (m ((c : Thread nD τ).loc main_arg1)) (m ((c : Thread nD τ).loc main_arg4)) q j) (0 : Fin 1)) := by
  match j with
  | ⟨0, _⟩ =>
    show (V m c main_v12 : S2000000x2.Idx → F .f32) (ix2 q (0 : Fin 2)) = _
    rw [nodes0_eq,
      takeVecFill_at _ _ (fun q' => by rw [nodeIdx0_at h]; exact h.nodeWord_lo q' 0)
        (fun q' => by rw [nodeIdx0_at h]; exact h.nodeWord_hi q' 0), flatNv_at]
    refine congrArg (fun r : Fin 1000001 => (m ((c : Thread nD τ).loc main_arg2) : S1000001x1.Idx → F .f32) (ix2 r (0 : Fin 1))) (Fin.ext ?_)
    show min (nodeIdx0 _ _ (ix1 q)).toInt.toNat (1000001 - 1) = min (nodeWord _ _ q 0).toInt.toNat (1000001 - 1)
    rw [nodeIdx0_at h]
  | ⟨1, _⟩ =>
    show (V m c main_v12 : S2000000x2.Idx → F .f32) (ix2 q (1 : Fin 2)) = _
    rw [nodes1_eq,
      takeVecFill_at _ _ (fun q' => by rw [nodeIdx1_at h]; exact h.nodeWord_lo q' 1)
        (fun q' => by rw [nodeIdx1_at h]; exact h.nodeWord_hi q' 1), flatNv_at]
    refine congrArg (fun r : Fin 1000001 => (m ((c : Thread nD τ).loc main_arg2) : S1000001x1.Idx → F .f32) (ix2 r (0 : Fin 1))) (Fin.ext ?_)
    show min (nodeIdx1 _ _ (ix1 q)).toInt.toNat (1000001 - 1) = min (nodeWord _ _ q 1).toInt.toNat (1000001 - 1)
    rw [nodeIdx1_at h]

end Cert.TwoNode.Glue

end
-- ==== Proof.KernelValue.lean ====
/-
  The kernel's result array is the interpolated field.

  The grid has 250 points; point t stages rows 8000·t … 8000·t + 7999 of the flattened shape functions [2000000, 32] and of
  the nodes array [2000000, 2] and writes back the same rows of the result [2000000, 16]. In its block the body multiplies
  columns 0…15 of the shape functions by the first node value of the row, columns 16…31 by the second, and adds: at row p,
  column k of the block that is the interpolated field at (8000·t + p, k). The 250 blocks tile the result, so the array
  after the run is the field everywhere.
-/
import proofs.«424653_j26010321944829_3_alg».proof.Proof.Gen.KernelIdeal.Value
import proofs.«424653_j26010321944829_3_alg».proof.Proof.KernelGlue

noncomputable section

namespace Cert.TwoNode.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.TwoNode Cert.TwoNode.Glue

variable {F : FTy → Type} [FloatOps F]

/-! ## One grid point's block -/

/-- What the body leaves at (p, k) of its output block, from the point's two input blocks: shape-function columns k and
    16 + k of row p weighted by the row's two node values. -/
theorem point_eq (x0 : Vec F S8000x32 .f32) (x1 : Vec F S8000x2 .f32) (p : Fin 8000) (k : Fin 16) :
    out0_2 x0 x1 (ix2 p k)
      = FloatOps.addf (FloatOps.mulf (x0 (ix2 p (⟨k.val, by omega⟩ : Fin 32))) (x1 (ix2 p (0 : Fin 2))))
          (FloatOps.mulf (x0 (ix2 p (⟨16 + k.val, by omega⟩ : Fin 32))) (x1 (ix2 p (1 : Fin 2)))) := by
  unfold out0_2
  rw [Cert.KernelIdeal.Value.canon2_eq]
  have i0 : r0_0.idx (Cert.KernelIdeal.Value.ix2_0 (ix2 p k)) = ix2 p (⟨k.val, by omega⟩ : Fin 32) := by
    funext a; apply Fin.ext
    match a with
    | ⟨0, _⟩ => show 0 + 1 * p.val = p.val; omega
    | ⟨1, _⟩ => show 0 + 1 * k.val = k.val; omega
  have i1 : r0_2.idx (Cert.KernelIdeal.Value.ix2_1 (ix2 p k)) = ix2 p (0 : Fin 2) := by
    funext a; apply Fin.ext
    match a with
    | ⟨0, _⟩ => show 0 + 1 * p.val = p.val; omega
    | ⟨1, _⟩ => show 0 + 1 * 0 = 0; omega
  have i2 : r0_1.idx (Cert.KernelIdeal.Value.ix2_2 (ix2 p k)) = ix2 p (⟨16 + k.val, by omega⟩ : Fin 32) := by
    funext a; apply Fin.ext
    match a with
    | ⟨0, _⟩ => show 0 + 1 * p.val = p.val; omega
    | ⟨1, _⟩ => show 16 + 1 * k.val = 16 + k.val; omega
  have i3 : r0_3.idx (Cert.KernelIdeal.Value.ix2_3 (ix2 p k)) = ix2 p (1 : Fin 2) := by
    funext a; apply Fin.ext
    match a with
    | ⟨0, _⟩ => show 0 + 1 * p.val = p.val; omega
    | ⟨1, _⟩ => show 1 + 1 * 0 = 1; omega
  show FloatOps.addf
      (FloatOps.mulf (x0 (r0_0.idx (Cert.KernelIdeal.Value.ix2_0 (ix2 p k)))) (x1 (r0_2.idx (Cert.KernelIdeal.Value.ix2_1 (ix2 p k)))))
      (FloatOps.mulf (x0 (r0_1.idx (Cert.KernelIdeal.Value.ix2_2 (ix2 p k)))) (x1 (r0_3.idx (Cert.KernelIdeal.Value.ix2_3 (ix2 p k))))) = _
  rw [i0, i1, i2, i3]

/-! ## The blocks in the arrays -/

/-- A grid point's position is below 250. -/
theorem pt_lt (t : Fin cfg0.N) : t.val < 250 := lt_of_lt_of_eq t.isLt N_0

/-- The printed index maps, decided over the 250 points: every window's block index is (the point, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of point t's blocks is row 8000·t + p of the arrays. -/
def rowOf (t : Fin cfg0.N) (p : Fin 8000) : Fin 2000000 := ⟨t.val * 8000 + p.val, by have := pt_lt t; omega⟩

variable (m : (ℓ : Loc nD τ sig) → Buf (Elt F) ℓ) (ρ : Dev nD → PrngReg)

/-- The shape functions' block at point t reads the flattened array at the point's rows. -/
theorem sfBlock_at (c : Dev nD) (t : Fin cfg0.N) (p : Fin 8000) (j : Fin 32) :
    iblk m c 0 t (ix2 p j) = (V m c main_v13 : S2000000x32.Idx → F .f32) (ix2 (rowOf t p) j) := by
  obtain ⟨e0, e1, -, -, -, -⟩ := idx_facts t
  show (V m c main_v13 : S2000000x32.Idx → F .f32) (((cfg0.win 0).blk t).view.emb (ix2 p j)) = _
  refine congrArg (V m c main_v13 : S2000000x32.Idx → F .f32) ?_
  funext a; apply Fin.ext
  match a with
  | ⟨0, _⟩ => show win0_0.index t (0 : Fin 2) * 8000 + 1 * p.val = t.val * 8000 + p.val; omega
  | ⟨1, _⟩ => show win0_0.index t (1 : Fin 2) * 32 + 1 * j.val = j.val; omega

/-- The node values' block at point t reads the nodes array at the point's rows. -/
theorem nodesBlock_at (c : Dev nD) (t : Fin cfg0.N) (p : Fin 8000) (j : Fin 2) :
    iblk m c 1 t (ix2 p j) = (V m c main_v12 : S2000000x2.Idx → F .f32) (ix2 (rowOf t p) j) := by
  obtain ⟨-, -, e0, e1, -, -⟩ := idx_facts t
  show (V m c main_v12 : S2000000x2.Idx → F .f32) (((cfg0.win 1).blk t).view.emb (ix2 p j)) = _
  refine congrArg (V m c main_v12 : S2000000x2.Idx → F .f32) ?_
  funext a; apply Fin.ext
  match a with
  | ⟨0, _⟩ => show win0_1.index t (0 : Fin 2) * 8000 + 1 * p.val = t.val * 8000 + p.val; omega
  | ⟨1, _⟩ => show win0_1.index t (1 : Fin 2) * 2 + 1 * j.val = j.val; omega

/-- Index (p, k) of point t's output block is index (8000·t + p, k) of the result. -/
theorem outBlock_at (t : Fin cfg0.N) (p : Fin 8000) (k : Fin 16) :
    ((cfg0.win 2).blk t).view.emb (ix2 p k) = (ix2 (rowOf t p) k : S2000000x16.Idx) := by
  obtain ⟨-, -, -, -, e0, e1⟩ := idx_facts t
  funext a; apply Fin.ext
  match a with
  | ⟨0, _⟩ => show win0_2.index t (0 : Fin 2) * 8000 + 1 * p.val = t.val * 8000 + p.val; omega
  | ⟨1, _⟩ => show win0_2.index t (1 : Fin 2) * 16 + 1 * k.val = k.val; omega

/-! ## The array after the run -/

/-- WHAT POINT t WRITES BACK is block t of the interpolated field of the launch arrays. -/
theorem flushed_eq (c : Dev nD)
    (h : InRange (m ((c : Thread nD τ).loc main_arg1)) (m ((c : Thread nD τ).loc main_arg4))) (t : Fin cfg0.N) :
    (dats m 0 c).flushed 2 t = ((cfg0.win 2).blk t).view.read (Elt F)
      (interp (m ((c : Thread nD τ).loc main_arg1)) (m ((c : Thread nD τ).loc main_arg2))
        (m ((c : Thread nD τ).loc main_arg3)) (m ((c : Thread nD τ).loc main_arg4)) : S2000000x16.Idx → F .f32) := by
  rw [Cert.KernelIdeal.Value.flushed2]
  funext y
  obtain ⟨p, k, hy⟩ : ∃ (p : Fin 8000) (k : Fin 16), (y : S8000x16.Idx) = ix2 p k := ⟨y 0, y 1, eq_ix2 y⟩
  subst hy
  show out0_2 (iblk m c 0 t) (iblk m c 1 t) (ix2 p k)
    = (interp (m ((c : Thread nD τ).loc main_arg1)) (m ((c : Thread nD τ).loc main_arg2))
        (m ((c : Thread nD τ).loc main_arg3)) (m ((c : Thread nD τ).loc main_arg4)) : S2000000x16.Idx → F .f32)
        (((cfg0.win 2).blk t).view.emb (ix2 p k))
  refine (point_eq (iblk m c 0 t) (iblk m c 1 t) p k).trans ?_
  rw [sfBlock_at, sfBlock_at, nodesBlock_at, nodesBlock_at, outBlock_at,
    sf_at m c (rowOf t p) _ (0 : Fin 2) k (by show k.val = 16 * 0 + k.val; omega),
    sf_at m c (rowOf t p) _ (1 : Fin 2) k (by show 16 + k.val = 16 * 1 + k.val; omega),
    nodes_at m c h, nodes_at m c h]
  rfl

/-- An index of the result is in point t's block iff each coordinate is in the block's range on its axis. -/
theorem mem_blk (t : Fin cfg0.N) (i : S2000000x16.Idx) :
    i ∈ ((cfg0.win 2).blk t).view.set ↔ ∀ a : Fin 2, win0_2.index t a * S8000x16.size a ≤ (i a).val
      ∧ (i a).val < win0_2.index t a * S8000x16.size a + S8000x16.size a := by
  show i ∈ ((View.whole main_v14).slice (win0_2.rect t)).set ↔ _
  rw [View.set_slice_whole, Rect.mem_set_unit]
  exact Iff.rfl

/-- Every index of the result lies in the block of the point its row falls to, row / 8000. -/
theorem cover (i : S2000000x16.Idx) :
    ∃ t : Fin cfg0.N, (cfg0.win 2).flush t = true ∧ i ∈ ((cfg0.win 2).blk t).view.set := by
  have hi0 : (i 0).val < 2000000 := (i 0).isLt
  have hi1 : (i 1).val < 16 := (i 1).isLt
  obtain ⟨t, ht⟩ : ∃ t : Fin cfg0.N, t.val = (i 0).val / 8000 :=
    ⟨⟨(i 0).val / 8000, lt_of_lt_of_eq (by omega : (i 0).val / 8000 < 250) N_0.symm⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 16 ≤ (i 1).val ∧ (i 1).val < win0_2.index t (1 : Fin 2) * 16 + 16
    omega

/-- THE RESULT ARRAY after the run is the interpolated field of the launch arrays. -/
theorem final (c : Dev nD)
    (h : InRange (m ((c : Thread nD τ).loc main_arg1)) (m ((c : Thread nD τ).loc main_arg4))) :
    (dats m 0 c).arrAt 2 cfg0.N
      = (interp (m ((c : Thread nD τ).loc main_arg1)) (m ((c : Thread nD τ).loc main_arg2))
          (m ((c : Thread nD τ).loc main_arg3)) (m ((c : Thread nD τ).loc main_arg4)) : S2000000x16.Idx → F .f32) :=
  (dats m 0 c).arrAt_eq_of_cover 2 _ (fun t _ => flushed_eq m c h t) cover

/-- The kernel's run with its result named: every weakly fair execution ends with the result at the interpolated field,
    the arguments unchanged. -/
theorem run (h : ∀ c : Dev nD, InRange (m ((c : Thread nD τ).loc main_arg1)) (m ((c : Thread nD τ).loc main_arg4))) :
    θ_run defs (onTc (τ := τ) (main (F := F))) ⟨m, fun _ => 0, ρ⟩ fun r => ∀ c : Dev nD,
      r.2.mem ((c : Thread nD τ).loc main_v14)
        = (interp (m ((c : Thread nD τ).loc main_arg1)) (m ((c : Thread nD τ).loc main_arg2))
            (m ((c : Thread nD τ).loc main_arg3)) (m ((c : Thread nD τ).loc main_arg4)) : S2000000x16.Idx → F .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => ⟨(hr c).1.trans (final m c (h c)), (hr c).2⟩)
    (Cert.KernelIdeal.Value.run_blocks m ρ)

end Cert.TwoNode.KernelValue

end
-- ==== Proof.lean ====
/-
  Two-node interpolation on a chain of cells: the kernel against its jnp reference, over the extended reals.

  Both programs compute, for 2000000 query points q and 16 shape functions k,

      out[q, k] = sf[q, 0, k] · nv[node(q, 0), 0] + sf[q, 1, k] · nv[node(q, 1), 0],   node(q, j) = conn[cell[q], j] − 1,

  the two products and the sum in the same order, so no law of the extended reals is needed and finiteness is not used. They
  differ in how they read the two tables. The reference indexes them, which clamps an index into the table; the kernel uses
  jnp.take, which keeps a gathered value only where the index passes a range test and puts a filler there otherwise (the least
  integer for a node number, a NaN for a nodal value), then flattens the shape functions to 32 columns and runs the
  multiply-add over 250 blocks of 8000 rows. Under the precondition's index ranges (0 ≤ cell < 1000000, 1 ≤ conn ≤ 1000001)
  every test holds and no clamp binds, so both results are the function `TwoNode.interp` of the arguments:
  Proof/Spec.lean states it, Proof/PreRange.lean reads the ranges off the precondition, Proof/RefValue.lean reads the
  reference's stages, Proof/KernelGlue.lean what the kernel's region finds in its input arrays, Proof/KernelValue.lean the 250
  blocks and the array they tile. The kernel's two frames are the generated ones; the reference's frame is its generated run
  with the result dropped; no operation was idealized, so `preserves` has nothing to state.
-/
import proofs.«424653_j26010321944829_3_alg».proof.Defs
import proofs.«424653_j26010321944829_3_alg».proof.Proof.Gen.Kernel
import proofs.«424653_j26010321944829_3_alg».proof.Proof.Gen.Kernel.Skeleton
import proofs.«424653_j26010321944829_3_alg».proof.Proof.Gen.Kernel.Launch
import proofs.«424653_j26010321944829_3_alg».proof.Proof.Gen.Kernel.Points
import proofs.«424653_j26010321944829_3_alg».proof.Proof.Gen.Kernel.Frame
import proofs.«424653_j26010321944829_3_alg».proof.Proof.Gen.KernelIdeal
import proofs.«424653_j26010321944829_3_alg».proof.Proof.Gen.KernelIdeal.Skeleton
import proofs.«424653_j26010321944829_3_alg».proof.Proof.Gen.KernelIdeal.Launch
import proofs.«424653_j26010321944829_3_alg».proof.Proof.Gen.KernelIdeal.Points
import proofs.«424653_j26010321944829_3_alg».proof.Proof.Gen.KernelIdeal.Frame
import proofs.«424653_j26010321944829_3_alg».proof.Proof.Gen.ReferenceIdeal
import proofs.«424653_j26010321944829_3_alg».proof.Proof.Gen.Pre_finite_inputs
import proofs.«424653_j26010321944829_3_alg».proof.Proof.Gen.KernelIdeal.Value
import proofs.«424653_j26010321944829_3_alg».proof.Proof.Gen.ReferenceIdeal.Run
import proofs.«424653_j26010321944829_3_alg».proof.Proof.Gen.ReferenceIdeal.Read
import proofs.«424653_j26010321944829_3_alg».proof.Proof.Spec
import proofs.«424653_j26010321944829_3_alg».proof.Proof.PreRange
import proofs.«424653_j26010321944829_3_alg».proof.Proof.RefValue
import proofs.«424653_j26010321944829_3_alg».proof.Proof.KernelValue
import Idealize.ShloMosaic.Adequacy
import Idealize.ShloMosaic.Init

noncomputable section

namespace Cert.Proof

open Idealize.ShloMosaic Idealize.SL.Sem Cert.TwoNode

/-- The kernel as printed runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and index ranges that hold, both programs end with the interpolated field of the arguments. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg1))
        (m ((c.tc : Thread Cert.KernelIdeal.nD Cert.KernelIdeal.τ).loc Cert.KernelIdeal.main_arg4)) :=
    fun c => inRange_of_pre _ _ _ _ _ (hpre c)
  refine ⟨_, KernelValue.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).2.1, (hagree c).2.2.1, (hagree c).2.2.2.1, (hagree c).2.2.2.2]
  exact RefValue.result_eq _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
